-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S1x65536x2 : Shape := ⟨3, ![1, 65536, 2]⟩
abbrev S4x512x512 : Shape := ⟨3, ![4, 512, 512]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S1x65536x2 : S_.BroadcastsInDim S1x65536x2 (![] : Fin 0 → Fin S1x65536x2.rank)
  reducesTo_S1x65536x2_S_d0_1_2 : S1x65536x2.ReducesTo [0, 1, 2] S_
  bcast_S_S4x512x512 : S_.BroadcastsInDim S4x512x512 (![] : Fin 0 → Fin S4x512x512.rank)
  reducesTo_S4x512x512_S_d0_1_2 : S4x512x512.ReducesTo [0, 1, 2] S_

variable [Facts]

def fn {F : FTy → Type} [FloatOps F] (main_arg0 : FVec F S65536x512 .f32) (main_arg1 : FVec F S1x65536x2 .f32) (main_arg2 : FVec F S4x512x512 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S1x65536x2 .f32 := Host.absf main_arg1
  let main_cst_0 : FVec F S_ .f32 := constant S_ .f32 0x7F800000#32
  let main_v5 : FVec F S1x65536x2 .f32 := broadcastInDim S1x65536x2 ![] bcast_S_S1x65536x2 main_cst_0
  let main_v6 : IVec S1x65536x2 1 := cmpf .olt main_v4 main_v5
  let main_c_1 : IVec S_ 1 := constantI S_ 1 1#1
  let main_v7 : IVec S_ 1 := (fun x v => Host.reduce IntOp.andi x v reducesTo_S1x65536x2_S_d0_1_2 h_S_) main_v6 main_c_1
  let main_v8 : IVec S_ 1 := andi main_v3 main_v7
  let main_v9 : FVec F S4x512x512 .f32 := Host.absf main_arg2
  let main_cst_2 : FVec F S_ .f32 := constant S_ .f32 0x7F800000#32
  let main_v10 : FVec F S4x512x512 .f32 := broadcastInDim S4x512x512 ![] bcast_S_S4x512x512 main_cst_2
  let main_v11 : IVec S4x512x512 1 := cmpf .olt main_v9 main_v10
  let main_c_3 : IVec S_ 1 := constantI S_ 1 1#1
  let main_v12 : IVec S_ 1 := (fun x v => Host.reduce IntOp.andi x v reducesTo_S4x512x512_S_d0_1_2 h_S_) main_v11 main_c_3
  let main_v13 : IVec S_ 1 := andi main_v8 main_v12
  main_v13
-- ==== Kernel.lean ====
abbrev S65536x512 : Shape := ⟨2, ![65536, 512]⟩
abbrev S1x65536x2 : Shape := ⟨3, ![1, 65536, 2]⟩
abbrev S4x512x512 : Shape := ⟨3, ![4, 512, 512]⟩
abbrev S65536x2 : Shape := ⟨2, ![65536, 2]⟩
abbrev S_ : Shape := ⟨0, ![]⟩
abbrev S65536x1 : Shape := ⟨2, ![65536, 1]⟩
abbrev S65536 : Shape := ⟨1, ![65536]⟩
abbrev S1x4 : Shape := ⟨2, ![1, 4]⟩
abbrev S65536x4 : Shape := ⟨2, ![65536, 4]⟩
abbrev S1024x512 : Shape := ⟨2, ![1024, 512]⟩
abbrev S1024x4 : Shape := ⟨2, ![1024, 4]⟩
abbrev S1x512x512 : Shape := ⟨3, ![1, 512, 512]⟩
abbrev S512x512 : Shape := ⟨2, ![512, 512]⟩
abbrev S1024x1 : Shape := ⟨2, ![1024, 1]⟩

abbrev nBuf : Space → Nat
  | .hbm => 73
  | .vmem => 7
  | .smem => 0
  | _ => 0

abbrev bufTy : (tb : Table) → Fin (tcTables nBuf tb) → BufTy
  | .hbm, ⟨0, _⟩ => ⟨S65536x512, .f32⟩
  | .hbm, ⟨1, _⟩ => ⟨S1x65536x2, .f32⟩
  | .hbm, ⟨2, _⟩ => ⟨S4x512x512, .f32⟩
  | .hbm, ⟨3, _⟩ => ⟨S65536x2, .f32⟩
  | .hbm, ⟨4, _⟩ => ⟨S_, .f32⟩
  | .hbm, ⟨5, _⟩ => ⟨S65536x2, .f32⟩
  | .hbm, ⟨6, _⟩ => ⟨S65536x2, .f32⟩
  | .hbm, ⟨7, _⟩ => ⟨S65536x1, .f32⟩
  | .hbm, ⟨8, _⟩ => ⟨S65536, .f32⟩
  | .hbm, ⟨9, _⟩ => ⟨S65536, .f32⟩
  | .hbm, ⟨10, _⟩ => ⟨S65536, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S65536, .i32⟩
  | .hbm, ⟨18, _⟩ => ⟨S65536, .i32⟩
  | .hbm, ⟨19, _⟩ => ⟨S_, .i32⟩
  | .hbm, ⟨20, _⟩ => ⟨S65536, .i32⟩
  | .hbm, ⟨21, _⟩ => ⟨S65536, .i1⟩
  | .hbm, ⟨22, _⟩ => ⟨S_, .i32⟩
  | .hbm, ⟨23, _⟩ => ⟨S65536, .i32⟩
  | .hbm, ⟨24, _⟩ => ⟨S65536, .i1⟩
  | .hbm, ⟨25, _⟩ => ⟨S_, .i32⟩
  | .hbm, ⟨26, _⟩ => ⟨S_, .i1⟩
  | .hbm, ⟨27, _⟩ => ⟨S65536, .i1⟩
  | .hbm, ⟨28, _⟩ => ⟨S65536, .i1⟩
  | .hbm, ⟨29, _⟩ => ⟨S65536, .i1⟩
  | .hbm, ⟨30, _⟩ => ⟨S65536, .i32⟩
  | .hbm, ⟨31, _⟩ => ⟨S65536, .i32⟩
  | .hbm, ⟨32, _⟩ => ⟨S65536, .i32⟩
  | .hbm, ⟨33, _⟩ => ⟨S65536x1, .f32⟩
  | .hbm, ⟨34, _⟩ => ⟨S65536, .f32⟩
  | .hbm, ⟨35, _⟩ => ⟨S65536, .f32⟩
  | .hbm, ⟨36, _⟩ => ⟨S65536, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i1⟩
  | .hbm, ⟨41, _⟩ => ⟨S_, .i32⟩
  | .hbm, ⟨42, _⟩ => ⟨S_, .i32⟩
  | .hbm, ⟨43, _⟩ => ⟨S65536, .i32⟩
  | .hbm, ⟨44, _⟩ => ⟨S65536, .i32⟩
  | .hbm, ⟨45, _⟩ => ⟨S_, .i32⟩
  | .hbm, ⟨46, _⟩ => ⟨S65536, .i32⟩
  | .hbm, ⟨47, _⟩ => ⟨S65536, .i1⟩
  | .hbm, ⟨48, _⟩ => ⟨S_, .i32⟩
  | .hbm, ⟨49, _⟩ => ⟨S65536, .i32⟩
  | .hbm, ⟨50, _⟩ => ⟨S65536, .i1⟩
  | .hbm, ⟨51, _⟩ => ⟨S_, .i32⟩
  | .hbm, ⟨52, _⟩ => ⟨S_, .i1⟩
  | .hbm, ⟨53, _⟩ => ⟨S65536, .i1⟩
  | .hbm, ⟨54, _⟩ => ⟨S65536, .i1⟩
  | .hbm, ⟨55, _⟩ => ⟨S65536, .i1⟩
  | .hbm, ⟨56, _⟩ => ⟨S65536, .i32⟩
  | .hbm, ⟨57, _⟩ => ⟨S65536, .i32⟩
  | .hbm, ⟨58, _⟩ => ⟨S65536, .i32⟩
  | .hbm, ⟨59, _⟩ => ⟨S_, .i32⟩
  | .hbm, ⟨60, _⟩ => ⟨S65536, .i32⟩
  | .hbm, ⟨61, _⟩ => ⟨S65536, .i32⟩
  | .hbm, ⟨62, _⟩ => ⟨S65536, .i32⟩
  | .hbm, ⟨63, _⟩ => ⟨S65536x1, .i32⟩
  | .hbm, ⟨64, _⟩ => ⟨S1x4, .i32⟩
  | .hbm, ⟨65, _⟩ => ⟨S65536x4, .i32⟩
  | .hbm, ⟨66, _⟩ => ⟨S65536x4, .i32⟩
  | .hbm, ⟨67, _⟩ => ⟨S65536x4, .i1⟩
  | .hbm, ⟨68, _⟩ => ⟨S65536x4, .f32⟩
  | .hbm, ⟨69, _⟩ => ⟨S65536x512, .bf16⟩
  | .hbm, ⟨70, _⟩ => ⟨S4x512x512, .f32⟩
  | .hbm, ⟨71, _⟩ => ⟨S4x512x512, .bf16⟩
  | .hbm, ⟨72, _⟩ => ⟨S65536x512, .f32⟩
  | .local _ .vmem, ⟨0, _⟩ => ⟨S1024x512, .bf16⟩
  | .local _ .vmem, ⟨1, _⟩ => ⟨S1024x512, .bf16⟩
  | .local _ .vmem, ⟨2, _⟩ => ⟨S1024x4, .f32⟩
  | .local _ .vmem, ⟨3, _⟩ => ⟨S1024x4, .f32⟩
  | .local _ .vmem, ⟨4, _⟩ => ⟨S4x512x512, .bf16⟩
  | .local _ .vmem, ⟨5, _⟩ => ⟨S1024x512, .f32⟩
  | .local _ .vmem, ⟨6, _⟩ => ⟨S1024x512, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_v5 : Ref sig .tc := ⟨.hbm, 20, rfl⟩
abbrev main_call0_v6 : Ref sig .tc := ⟨.hbm, 21, rfl⟩
abbrev main_call0_c_2 : Ref sig .tc := ⟨.hbm, 22, rfl⟩
abbrev main_call0_v7 : Ref sig .tc := ⟨.hbm, 23, rfl⟩
abbrev main_call0_v8 : Ref sig .tc := ⟨.hbm, 24, rfl⟩
abbrev main_call0_c_3 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_c_0 : Ref sig .tc := ⟨.hbm, 37, rfl⟩
abbrev main_call1_v0 : Ref sig .tc := ⟨.hbm, 38, rfl⟩
abbrev main_call1_c : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_c_1 : Ref sig .tc := ⟨.hbm, 45, rfl⟩
abbrev main_call1_v5 : Ref sig .tc := ⟨.hbm, 46, rfl⟩
abbrev main_call1_v6 : Ref sig .tc := ⟨.hbm, 47, rfl⟩
abbrev main_call1_c_2 : Ref sig .tc := ⟨.hbm, 48, rfl⟩
abbrev main_call1_v7 : Ref sig .tc := ⟨.hbm, 49, rfl⟩
abbrev main_call1_v8 : Ref sig .tc := ⟨.hbm, 50, rfl⟩
abbrev main_call1_c_3 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_v12 : Ref sig .tc := ⟨.hbm, 58, rfl⟩
abbrev main_c_1 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1x65536x2_S65536x2 : S1x65536x2.ShapeCasts S65536x2
  bcast_S_S65536x2 : S_.BroadcastsInDim S65536x2 (![] : Fin 0 → Fin S65536x2.rank)
  slices_S65536x2_S65536x1_0_0 : S65536x2.Slices ![0, 0] S65536x1
  shapeCasts_S65536x1_S65536 : S65536x1.ShapeCasts S65536
  bcast_S_S65536 : S_.BroadcastsInDim S65536 (![] : Fin 0 → Fin S65536.rank)
  slices_S65536x2_S65536x1_0_1 : S65536x2.Slices ![0, 1] S65536x1
  bcast_S65536_S65536x1_0 : S65536.BroadcastsInDim S65536x1 (![0] : Fin 1 → Fin S65536x1.rank)
  bcast_S65536x1_S65536x4_0_1 : S65536x1.BroadcastsInDim S65536x4 (![0, 1] : Fin 2 → Fin S65536x4.rank)
  bcast_S1x4_S65536x4_0_1 : S1x4.BroadcastsInDim S65536x4 (![0, 1] : Fin 2 → Fin S65536x4.rank)
  bitsLt_bf16_f32 : FTy.bits .bf16 < FTy.bits .f32
  transposes_S4x512x512_S4x512x512_0_2_1 : S4x512x512.Transposes [0, 2, 1] S4x512x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S4x512x512_S1x512x512_0_0_0 : ∀ a, (![0, 0, 0] : Fin 3 → Nat) a + S1x512x512.size a ≤ S4x512x512.size a
  h_S1x512x512 : 0 < S1x512x512.numel
  shapeCasts_S1x512x512_S512x512 : S1x512x512.ShapeCasts S512x512
  inb_S1024x4_S1024x1_0_0 : ∀ a, (![0, 0] : Fin 2 → Nat) a + S1024x1.size a ≤ S1024x4.size a
  h_S1024x1 : 0 < S1024x1.numel
  shapeCasts_S1024x1_S1024x1 : S1024x1.ShapeCasts S1024x1
  broadcasts_S1024x1_S1024x512 : S1024x1.Broadcasts S1024x512
  inb_S4x512x512_S1x512x512_1_0_0 : ∀ a, (![1, 0, 0] : Fin 3 → Nat) a + S1x512x512.size a ≤ S4x512x512.size a
  inb_S1024x4_S1024x1_0_1 : ∀ a, (![0, 1] : Fin 2 → Nat) a + S1024x1.size a ≤ S1024x4.size a
  inb_S4x512x512_S1x512x512_2_0_0 : ∀ a, (![2, 0, 0] : Fin 3 → Nat) a + S1x512x512.size a ≤ S4x512x512.size a
  inb_S1024x4_S1024x1_0_2 : ∀ a, (![0, 2] : Fin 2 → Nat) a + S1024x1.size a ≤ S1024x4.size a
  inb_S4x512x512_S1x512x512_3_0_0 : ∀ a, (![3, 0, 0] : Fin 3 → Nat) a + S1x512x512.size a ≤ S4x512x512.size a
  inb_S1024x4_S1024x1_0_3 : ∀ a, (![0, 3] : Fin 2 → Nat) a + S1024x1.size a ≤ S1024x4.size a
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S65536x512.size a
  hwx0_0 : ∀ i : grid0.Coords, EltTy.bits .bf16 = 32 ∨ (Rect.block (s := S65536x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4.size a ≤ S65536x4.size a
  hwx0_1 : ∀ i : grid0.Coords, EltTy.bits .f32 = 32 ∨ (Rect.block (s := S65536x4) S1024x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x512x512.size a ≤ S4x512x512.size a
  hwx0_2 : ∀ i : grid0.Coords, EltTy.bits .bf16 = 32 ∨ (Rect.block (s := S4x512x512) S4x512x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S65536x512.size a
  hwx0_3 : ∀ i : grid0.Coords, EltTy.bits .f32 = 32 ∨ (Rect.block (s := S65536x512) S1024x512.size (cc0_transform_3 i) (hinb0_3 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v17) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1024x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S4x512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x512 : Shape := ⟨2, ![65536, 512]⟩
abbrev S1x65536x2 : Shape := ⟨3, ![1, 65536, 2]⟩
abbrev S4x512x512 : Shape := ⟨3, ![4, 512, 512]⟩
abbrev S65536x2 : Shape := ⟨2, ![65536, 2]⟩
abbrev S_ : Shape := ⟨0, ![]⟩
abbrev S65536x1 : Shape := ⟨2, ![65536, 1]⟩
abbrev S65536 : Shape := ⟨1, ![65536]⟩
abbrev S1x512x512 : Shape := ⟨3, ![1, 512, 512]⟩
abbrev S512x512 : Shape := ⟨2, ![512, 512]⟩

abbrev nBuf : Space → Nat
  | .hbm => 121
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S1x65536x2, .f32⟩
  | .hbm, ⟨2, _⟩ => ⟨S4x512x512, .f32⟩
  | .hbm, ⟨3, _⟩ => ⟨S65536x2, .f32⟩
  | .hbm, ⟨4, _⟩ => ⟨S_, .f32⟩
  | .hbm, ⟨5, _⟩ => ⟨S65536x2, .f32⟩
  | .hbm, ⟨6, _⟩ => ⟨S65536x2, .f32⟩
  | .hbm, ⟨7, _⟩ => ⟨S65536x1, .f32⟩
  | .hbm, ⟨8, _⟩ => ⟨S65536, .f32⟩
  | .hbm, ⟨9, _⟩ => ⟨S65536, .f32⟩
  | .hbm, ⟨10, _⟩ => ⟨S65536, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S65536, .i32⟩
  | .hbm, ⟨18, _⟩ => ⟨S65536, .i32⟩
  | .hbm, ⟨19, _⟩ => ⟨S_, .i32⟩
  | .hbm, ⟨20, _⟩ => ⟨S65536, .i32⟩
  | .hbm, ⟨21, _⟩ => ⟨S65536, .i1⟩
  | .hbm, ⟨22, _⟩ => ⟨S_, .i32⟩
  | .hbm, ⟨23, _⟩ => ⟨S65536, .i32⟩
  | .hbm, ⟨24, _⟩ => ⟨S65536, .i1⟩
  | .hbm, ⟨25, _⟩ => ⟨S_, .i32⟩
  | .hbm, ⟨26, _⟩ => ⟨S_, .i1⟩
  | .hbm, ⟨27, _⟩ => ⟨S65536, .i1⟩
  | .hbm, ⟨28, _⟩ => ⟨S65536, .i1⟩
  | .hbm, ⟨29, _⟩ => ⟨S65536, .i1⟩
  | .hbm, ⟨30, _⟩ => ⟨S65536, .i32⟩
  | .hbm, ⟨31, _⟩ => ⟨S65536, .i32⟩
  | .hbm, ⟨32, _⟩ => ⟨S65536, .i32⟩
  | .hbm, ⟨33, _⟩ => ⟨S65536x1, .f32⟩
  | .hbm, ⟨34, _⟩ => ⟨S65536, .f32⟩
  | .hbm, ⟨35, _⟩ => ⟨S65536, .f32⟩
  | .hbm, ⟨36, _⟩ => ⟨S65536, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i1⟩
  | .hbm, ⟨41, _⟩ => ⟨S_, .i32⟩
  | .hbm, ⟨42, _⟩ => ⟨S_, .i32⟩
  | .hbm, ⟨43, _⟩ => ⟨S65536, .i32⟩
  | .hbm, ⟨44, _⟩ => ⟨S65536, .i32⟩
  | .hbm, ⟨45, _⟩ => ⟨S_, .i32⟩
  | .hbm, ⟨46, _⟩ => ⟨S65536, .i32⟩
  | .hbm, ⟨47, _⟩ => ⟨S65536, .i1⟩
  | .hbm, ⟨48, _⟩ => ⟨S_, .i32⟩
  | .hbm, ⟨49, _⟩ => ⟨S65536, .i32⟩
  | .hbm, ⟨50, _⟩ => ⟨S65536, .i1⟩
  | .hbm, ⟨51, _⟩ => ⟨S_, .i32⟩
  | .hbm, ⟨52, _⟩ => ⟨S_, .i1⟩
  | .hbm, ⟨53, _⟩ => ⟨S65536, .i1⟩
  | .hbm, ⟨54, _⟩ => ⟨S65536, .i1⟩
  | .hbm, ⟨55, _⟩ => ⟨S65536, .i1⟩
  | .hbm, ⟨56, _⟩ => ⟨S65536, .i32⟩
  | .hbm, ⟨57, _⟩ => ⟨S65536, .i32⟩
  | .hbm, ⟨58, _⟩ => ⟨S65536, .i32⟩
  | .hbm, ⟨59, _⟩ => ⟨S_, .i32⟩
  | .hbm, ⟨60, _⟩ => ⟨S65536, .i32⟩
  | .hbm, ⟨61, _⟩ => ⟨S65536, .i32⟩
  | .hbm, ⟨62, _⟩ => ⟨S65536, .i32⟩
  | .hbm, ⟨63, _⟩ => ⟨S_, .f32⟩
  | .hbm, ⟨64, _⟩ => ⟨S65536x512, .f32⟩
  | .hbm, ⟨65, _⟩ => ⟨S_, .i32⟩
  | .hbm, ⟨66, _⟩ => ⟨S65536, .i32⟩
  | .hbm, ⟨67, _⟩ => ⟨S65536, .i1⟩
  | .hbm, ⟨68, _⟩ => ⟨S65536x1, .i1⟩
  | .hbm, ⟨69, _⟩ => ⟨S1x512x512, .f32⟩
  | .hbm, ⟨70, _⟩ => ⟨S512x512, .f32⟩
  | .hbm, ⟨71, _⟩ => ⟨S512x512, .f32⟩
  | .hbm, ⟨72, _⟩ => ⟨S65536x512, .f32⟩
  | .hbm, ⟨73, _⟩ => ⟨S_, .f32⟩
  | .hbm, ⟨74, _⟩ => ⟨S65536x512, .i1⟩
  | .hbm, ⟨75, _⟩ => ⟨S65536x512, .f32⟩
  | .hbm, ⟨76, _⟩ => ⟨S65536x512, .f32⟩
  | .hbm, ⟨77, _⟩ => ⟨S65536x512, .f32⟩
  | .hbm, ⟨78, _⟩ => ⟨S_, .i32⟩
  | .hbm, ⟨79, _⟩ => ⟨S65536, .i32⟩
  | .hbm, ⟨80, _⟩ => ⟨S65536, .i1⟩
  | .hbm, ⟨81, _⟩ => ⟨S65536x1, .i1⟩
  | .hbm, ⟨82, _⟩ => ⟨S1x512x512, .f32⟩
  | .hbm, ⟨83, _⟩ => ⟨S512x512, .f32⟩
  | .hbm, ⟨84, _⟩ => ⟨S512x512, .f32⟩
  | .hbm, ⟨85, _⟩ => ⟨S65536x512, .f32⟩
  | .hbm, ⟨86, _⟩ => ⟨S_, .f32⟩
  | .hbm, ⟨87, _⟩ => ⟨S65536x512, .i1⟩
  | .hbm, ⟨88, _⟩ => ⟨S65536x512, .f32⟩
  | .hbm, ⟨89, _⟩ => ⟨S65536x512, .f32⟩
  | .hbm, ⟨90, _⟩ => ⟨S65536x512, .f32⟩
  | .hbm, ⟨91, _⟩ => ⟨S_, .i32⟩
  | .hbm, ⟨92, _⟩ => ⟨S65536, .i32⟩
  | .hbm, ⟨93, _⟩ => ⟨S65536, .i1⟩
  | .hbm, ⟨94, _⟩ => ⟨S65536x1, .i1⟩
  | .hbm, ⟨95, _⟩ => ⟨S1x512x512, .f32⟩
  | .hbm, ⟨96, _⟩ => ⟨S512x512, .f32⟩
  | .hbm, ⟨97, _⟩ => ⟨S512x512, .f32⟩
  | .hbm, ⟨98, _⟩ => ⟨S65536x512, .f32⟩
  | .hbm, ⟨99, _⟩ => ⟨S_, .f32⟩
  | .hbm, ⟨100, _⟩ => ⟨S65536x512, .i1⟩
  | .hbm, ⟨101, _⟩ => ⟨S65536x512, .f32⟩
  | .hbm, ⟨102, _⟩ => ⟨S65536x512, .f32⟩
  | .hbm, ⟨103, _⟩ => ⟨S65536x512, .f32⟩
  | .hbm, ⟨104, _⟩ => ⟨S_, .i32⟩
  | .hbm, ⟨105, _⟩ => ⟨S65536, .i32⟩
  | .hbm, ⟨106, _⟩ => ⟨S65536, .i1⟩
  | .hbm, ⟨107, _⟩ => ⟨S65536x1, .i1⟩
  | .hbm, ⟨108, _⟩ => ⟨S1x512x512, .f32⟩
  | .hbm, ⟨109, _⟩ => ⟨S512x512, .f32⟩
  | .hbm, ⟨110, _⟩ => ⟨S512x512, .f32⟩
  | .hbm, ⟨111, _⟩ => ⟨S65536x512, .f32⟩
  | .hbm, ⟨112, _⟩ => ⟨S_, .f32⟩
  | .hbm, ⟨113, _⟩ => ⟨S65536x512, .i1⟩
  | .hbm, ⟨114, _⟩ => ⟨S65536x512, .f32⟩
  | .hbm, ⟨115, _⟩ => ⟨S65536x512, .f32⟩
  | .hbm, ⟨116, _⟩ => ⟨S65536x512, .f32⟩
  | .hbm, ⟨117, _⟩ => ⟨S_, .f32⟩
  | .hbm, ⟨118, _⟩ => ⟨S65536x512, .f32⟩
  | .hbm, ⟨119, _⟩ => ⟨S65536x512, .f32⟩
  | .hbm, ⟨120, _⟩ => ⟨S65536x512, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_v5 : Ref sig .tc := ⟨.hbm, 20, rfl⟩
abbrev main_call0_v6 : Ref sig .tc := ⟨.hbm, 21, rfl⟩
abbrev main_call0_c_2 : Ref sig .tc := ⟨.hbm, 22, rfl⟩
abbrev main_call0_v7 : Ref sig .tc := ⟨.hbm, 23, rfl⟩
abbrev main_call0_v8 : Ref sig .tc := ⟨.hbm, 24, rfl⟩
abbrev main_call0_c_3 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_c_0 : Ref sig .tc := ⟨.hbm, 37, rfl⟩
abbrev main_call1_v0 : Ref sig .tc := ⟨.hbm, 38, rfl⟩
abbrev main_call1_c : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_c_1 : Ref sig .tc := ⟨.hbm, 45, rfl⟩
abbrev main_call1_v5 : Ref sig .tc := ⟨.hbm, 46, rfl⟩
abbrev main_call1_v6 : Ref sig .tc := ⟨.hbm, 47, rfl⟩
abbrev main_call1_c_2 : Ref sig .tc := ⟨.hbm, 48, rfl⟩
abbrev main_call1_v7 : Ref sig .tc := ⟨.hbm, 49, rfl⟩
abbrev main_call1_v8 : Ref sig .tc := ⟨.hbm, 50, rfl⟩
abbrev main_call1_c_3 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_v12 : Ref sig .tc := ⟨.hbm, 58, rfl⟩
abbrev main_c_1 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_cst_2 : Ref sig .tc := ⟨.hbm, 63, rfl⟩
abbrev main_v16 : Ref sig .tc := ⟨.hbm, 64, rfl⟩
abbrev main_c_3 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_cst_4 : Ref sig .tc := ⟨.hbm, 73, rfl⟩
abbrev main_call2_v0 : Ref sig .tc := ⟨.hbm, 74, rfl⟩
abbrev main_call2_v1 : Ref sig .tc := ⟨.hbm, 75, rfl⟩
abbrev main_v24 : Ref sig .tc := ⟨.hbm, 76, rfl⟩
abbrev main_v25 : Ref sig .tc := ⟨.hbm, 77, rfl⟩
abbrev main_c_5 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_cst_6 : Ref sig .tc := ⟨.hbm, 86, rfl⟩
abbrev main_call3_v0 : Ref sig .tc := ⟨.hbm, 87, rfl⟩
abbrev main_call3_v1 : Ref sig .tc := ⟨.hbm, 88, rfl⟩
abbrev main_v33 : Ref sig .tc := ⟨.hbm, 89, rfl⟩
abbrev main_v34 : Ref sig .tc := ⟨.hbm, 90, rfl⟩
abbrev main_c_7 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_cst_8 : Ref sig .tc := ⟨.hbm, 99, rfl⟩
abbrev main_call4_v0 : Ref sig .tc := ⟨.hbm, 100, rfl⟩
abbrev main_call4_v1 : Ref sig .tc := ⟨.hbm, 101, rfl⟩
abbrev main_v42 : Ref sig .tc := ⟨.hbm, 102, rfl⟩
abbrev main_v43 : Ref sig .tc := ⟨.hbm, 103, rfl⟩
abbrev main_c_9 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_cst_10 : Ref sig .tc := ⟨.hbm, 112, rfl⟩
abbrev main_call5_v0 : Ref sig .tc := ⟨.hbm, 113, rfl⟩
abbrev main_call5_v1 : Ref sig .tc := ⟨.hbm, 114, rfl⟩
abbrev main_v51 : Ref sig .tc := ⟨.hbm, 115, rfl⟩
abbrev main_v52 : Ref sig .tc := ⟨.hbm, 116, rfl⟩
abbrev main_cst_11 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩

abbrev nD : Nat := 1
abbrev τ : Topo := Topo.v7x

variable {F : FTy → Type} [FloatOps F]

class Facts₀ : Prop where
  shapeCasts_S1x65536x2_S65536x2 : S1x65536x2.ShapeCasts S65536x2
  bcast_S_S65536x2 : S_.BroadcastsInDim S65536x2 (![] : Fin 0 → Fin S65536x2.rank)
  slices_S65536x2_S65536x1_0_0 : S65536x2.Slices ![0, 0] S65536x1
  shapeCasts_S65536x1_S65536 : S65536x1.ShapeCasts S65536
  bcast_S_S65536 : S_.BroadcastsInDim S65536 (![] : Fin 0 → Fin S65536.rank)
  slices_S65536x2_S65536x1_0_1 : S65536x2.Slices ![0, 1] S65536x1
  bcast_S_S65536x512 : S_.BroadcastsInDim S65536x512 (![] : Fin 0 → Fin S65536x512.rank)
  bcast_S65536_S65536x1_0 : S65536.BroadcastsInDim S65536x1 (![0] : Fin 1 → Fin S65536x1.rank)
  slices_S4x512x512_S1x512x512_0_0_0 : S4x512x512.Slices ![0, 0, 0] S1x512x512
  shapeCasts_S1x512x512_S512x512 : S1x512x512.ShapeCasts S512x512
  transposes_S512x512_S512x512_1_0 : S512x512.Transposes [1, 0] S512x512
  bcast_S65536x1_S65536x512_0_1 : S65536x1.BroadcastsInDim S65536x512 (![0, 1] : Fin 2 → Fin S65536x512.rank)
  slices_S4x512x512_S1x512x512_1_0_0 : S4x512x512.Slices ![1, 0, 0] S1x512x512
  slices_S4x512x512_S1x512x512_2_0_0 : S4x512x512.Slices ![2, 0, 0] S1x512x512
  slices_S4x512x512_S1x512x512_3_0_0 : S4x512x512.Slices ![3, 0, 0] S1x512x512
  dot_S65536x512_S512x512_S65536x512_1_0_0_1_n_n_wf : DotDims.WF S65536x512 S512x512 S65536x512 [1] [0] [0] [1] [] []

variable [Facts₀]

def dot_S65536x512_S512x512_S65536x512_1_0_0_1_n_n : DotDims S65536x512 S512x512 S65536x512 where
  lhsContracting := [1]
  rhsContracting := [0]
  lhsNonContracting := [0]
  rhsNonContracting := [1]
  lhsBatch := []
  rhsBatch := []
  wf := dot_S65536x512_S512x512_S65536x512_1_0_0_1_n_n_wf

class Facts : Prop extends Facts₀ where

variable [Facts]
-- ==== Proof.LibSageSpec.lean ====
/-
  Dense layers at the extended reals, index by index. A layer's entry (p, q) is a sum over the contracted axis of a row
  of the left matrix against a column of the right one, plus a bias read at the column; a SAGE layer adds two such sums
  (the aggregated neighbours against one weight matrix, the node's own features against another) before the bias. The
  leaky activation is spelt exactly as both programs spell it: a select on `s ≥ 0` between `s` and a constant times `s`.
  A matrix product whose dimension numbers are the plain "rows by columns" ones (contract axis 1 of the left operand with
  axis 0 of the right) reads at (p, q) as that sum, on the MXU into a zero accumulator and on the host alike.
-/
import Idealize.ShloMosaic.PureOps.Ideal
import Idealize.ShloMosaic.PureOps.Ideal.Laws
import Idealize.ShloMosaic.Lib.ValueIdx

noncomputable section

open scoped BigOperators

namespace Idealize.ShloMosaic.SageSpec

open Idealize.ShloMosaic Idealize.ShloMosaic.ValueIdx

/-- An [n × m] matrix of extended reals. -/
abbrev Mat (n m : Nat) : Type := (⟨2, ![n, m]⟩ : Shape).Idx → EReal

/-- Row `p` of `x` against column `q` of `W`. -/
def rowDot {n k m : Nat} (x : Mat n k) (W : Mat k m) (p : Fin n) (q : Fin m) : EReal :=
  ∑ j : Fin k, x (ix2 p j) * W (ix2 j q)

/-- The leaky activation as printed: `s` where `s ≥ 0`, else the slope constant (the f32 nearest 0.01) times `s`. -/
def leakyAt (s : EReal) : EReal :=
  Scalar.select (FloatOps.cmpf (F := Ideal) (φ := .f32) .oge s (Ideal.ofBits .f32 0x00000000#32)) s
    (FloatOps.mulf (F := Ideal) (φ := .f32) (Ideal.ofBits .f32 0x3C23D70A#32) s)

/-- A linear layer: `x · W + b`. -/
def linF {n k m : Nat} (x : Mat n k) (W : Mat k m) (b : Fin m → EReal) : Mat n m :=
  fun i => rowDot x W (i 0) (i 1) + b (i 1)

/-- A SAGE layer: `act (agg · Wl + h · Wr + b)`, the sums grouped as the kernel groups them. -/
def sageF {n k m : Nat} (act : EReal → EReal) (agg h : Mat n k) (Wl Wr : Mat k m) (b : Fin m → EReal) : Mat n m :=
  fun i => act (rowDot agg Wl (i 0) (i 1) + rowDot h Wr (i 0) (i 1) + b (i 1))

/-- The reference groups the bias with the first product: the same extended real (addition of extended reals is
    commutative and associative, infinities included). -/
theorem add_bias_comm (a b c : EReal) : a + c + b = a + b + c := add_right_comm a c b

/-- Dimension numbers of a plain [n × k] · [k × m] product: one contracted axis of extent `k`, the left operand read at
    (row, κ), the right at (κ, column). -/
structure PlainDot {n k m : Nat} (d : DotDims ⟨2, ![n, k]⟩ ⟨2, ![k, m]⟩ ⟨2, ![n, m]⟩) : Prop where
  rank : d.contr.rank = 1
  size : ∀ h : 0 < d.contr.rank, d.contr.size ⟨0, h⟩ = k
  l0 : ∀ (i : (⟨2, ![n, m]⟩ : Shape).Idx) (q : d.contr.Idx), (d.lhsIdx i q 0).val = (i 0).val
  l1 : ∀ (i : (⟨2, ![n, m]⟩ : Shape).Idx) (q : d.contr.Idx) (h : 0 < d.contr.rank), (d.lhsIdx i q 1).val = (q ⟨0, h⟩).val
  r0 : ∀ (i : (⟨2, ![n, m]⟩ : Shape).Idx) (q : d.contr.Idx) (h : 0 < d.contr.rank), (d.rhsIdx i q 0).val = (q ⟨0, h⟩).val
  r1 : ∀ (i : (⟨2, ![n, m]⟩ : Shape).Idx) (q : d.contr.Idx), (d.rhsIdx i q 1).val = (i 1).val

section
variable {n k m : Nat} {d : DotDims ⟨2, ![n, k]⟩ ⟨2, ![k, m]⟩ ⟨2, ![n, m]⟩}

/-- The contracted sum of a plain product, re-indexed by the contracted axis's coordinate. -/
theorem PlainDot.sum_eq (hd : PlainDot d) (a : Mat n k) (w : Mat k m) (j : (⟨2, ![n, m]⟩ : Shape).Idx) :
    ∑ q : d.contr.Idx, a (d.lhsIdx j q) * w (d.rhsIdx j q) = rowDot a w (j 0) (j 1) := by
  have h0 : 0 < d.contr.rank := by rw [hd.rank]; exact Nat.one_pos
  unfold rowDot
  rw [← Equiv.sum_comp (contrEquiv1 d k hd.rank (hd.size _)).symm]
  refine Finset.sum_congr rfl fun κ _ => ?_
  have hk := contrEquiv1_symm_val d k hd.rank (hd.size _) κ
  have el : d.lhsIdx j ((contrEquiv1 d k hd.rank (hd.size _)).symm κ) = ix2 (j 0) κ := funext fun a => Fin.ext (by
    match a with
    | ⟨0, _⟩ => exact hd.l0 _ _
    | ⟨1, _⟩ => exact (hd.l1 _ _ h0).trans hk)
  have er : d.rhsIdx j ((contrEquiv1 d k hd.rank (hd.size _)).symm κ) = ix2 κ (j 1) := funext fun a => Fin.ext (by
    match a with
    | ⟨0, _⟩ => exact (hd.r0 _ _ h0).trans hk
    | ⟨1, _⟩ => exact hd.r1 _ _)
  rw [el, er] <;> rfl

/-- The MXU's product into a zero accumulator, at (p, q): row `p` against column `q`. Whatever the operands' formats:
    at the extended reals a change of format is the identity. -/
theorem matmul_zero_at {φ₁ φ₂ : FTy} (hd : PlainDot d) (prec : Option ContractPrecision) (a : FVec Ideal ⟨2, ![n, k]⟩ φ₁)
    (w : FVec Ideal ⟨2, ![k, m]⟩ φ₂) (j : (⟨2, ![n, m]⟩ : Shape).Idx) :
    FloatOps.matmul d prec a w (constant ⟨2, ![n, m]⟩ .f32 0x00000000#32) j = rowDot (fun i => a i) (fun i => w i) (j 0) (j 1) := by
  rw [Ideal.matmul_constant_zero_apply]
  exact hd.sum_eq (fun i => a i) (fun i => w i) j

/-- The host's `dot_general`, at (p, q): the same sum. -/
theorem dotGeneral_at {φ₁ φ₂ : FTy} (hd : PlainDot d) (prec : Option ContractPrecision) (a : FVec Ideal ⟨2, ![n, k]⟩ φ₁)
    (w : FVec Ideal ⟨2, ![k, m]⟩ φ₂) (j : (⟨2, ![n, m]⟩ : Shape).Idx) :
    Host.dotGeneral d prec a w j = rowDot (fun i => a i) (fun i => w i) (j 0) (j 1) := by
  simp only [Host.dotGeneral]
  rw [Ideal.dotGeneral_apply]
  exact hd.sum_eq (fun i => a i) (fun i => w i) j

end

end Idealize.ShloMosaic.SageSpec

end
-- ==== Proof.Spec.lean ====
/-
  What both programs compute, as one function of the three argument arrays.

  A row r of the 65536 points carries two coordinates (x, y). Its tile is  2·rem(⌊16·x⌋, 2) + rem(⌊16·y⌋, 2),  a word in
  {0, 1, 2, 3} for finite coordinates, where rem is the remainder with the divisor's sign (the floor, the conversion to a
  32-bit word and the remainder are spelt with the very operations both programs apply, so the tile is ONE function of
  the coordinates and is never evaluated). Expert e's dense layer at (r, q) is the row-by-column sum
  Σ_k feats[r, k] · W[e, q, k]. The result at (r, q) is

      sin (30 · ((((0 + R₀) + R₁) + R₂) + R₃)),      R_e = (expert e's layer at (r, q)) if tile r = e, else 0.

  One program forms R_e as a 0/1 mask times the layer, the other as a selection between the layer and 0; on the extended
  reals 1 · p = p and 0 · p = 0 for EVERY p (also an infinite one), so the two agree with no finiteness needed.
-/
import proofs.«149066_j34754875359890_1_alg».proof.Proof.LibSageSpec
import Idealize.ShloMosaic.PureOps.Vector
import Idealize.ShloMosaic.Lib.StableHlo.Predicate

noncomputable section

open scoped BigOperators

namespace Cert.RoutedSine

open Idealize.ShloMosaic Idealize.ShloMosaic.ValueIdx Idealize.ShloMosaic.SageSpec

/-- Features and result: 65536 rows of 512. -/
abbrev SRows : Shape := ⟨2, ![65536, 512]⟩
/-- Four experts' 512 × 512 weights, W[e, out, in]. -/
abbrev SWts : Shape := ⟨3, ![4, 512, 512]⟩
/-- The coordinates as given: one batch of 65536 points (x, y). -/
abbrev SCoords : Shape := ⟨3, ![1, 65536, 2]⟩
abbrev SPts2 : Shape := ⟨2, ![65536, 2]⟩
abbrev SPts1 : Shape := ⟨2, ![65536, 1]⟩
abbrev SPts : Shape := ⟨1, ![65536]⟩
abbrev S0 : Shape := ⟨0, ![]⟩

theorem castCoords : SCoords.ShapeCasts SPts2 := by decide
theorem bcastPts2 : S0.BroadcastsInDim SPts2 (![] : Fin 0 → Fin SPts2.rank) := by decide
theorem sliceX : SPts2.Slices ![0, 0] SPts1 := by decide
theorem sliceY : SPts2.Slices ![0, 1] SPts1 := by decide
theorem castCol : SPts1.ShapeCasts SPts := by decide
theorem bcastPts : S0.BroadcastsInDim SPts (![] : Fin 0 → Fin SPts.rank) := by decide

section Tile

variable {F : FTy → Type} [FloatOps F]

/-- Both coordinates of every point, times 16. -/
def scaled (coords : FVec F SCoords .f32) : FVec F SPts2 .f32 :=
  mulf (shapeCast SPts2 coords castCoords) (broadcastInDim SPts2 ![] bcastPts2 (constant S0 .f32 0x41800000#32))

/-- ⌊16·x⌋ as a 32-bit word, per point. -/
def cellX (coords : FVec F SCoords .f32) : IVec SPts 32 :=
  fptosi 32 (Host.floor (shapeCast SPts (extractStridedSlice SPts1 ![0, 0] (scaled coords) sliceX) castCol))

/-- ⌊16·y⌋ as a 32-bit word, per point. -/
def cellY (coords : FVec F SCoords .f32) : IVec SPts 32 :=
  fptosi 32 (Host.floor (shapeCast SPts (extractStridedSlice SPts1 ![0, 1] (scaled coords) sliceY) castCol))

/-- The divisor the remainder is taken by: 2, guarded against 0 as the remainder function spells it (1 where the
    divisor is 0). -/
def divisor : IVec S0 32 :=
  select (cmpi .eq (id (constantI S0 32 2#32)) (constantI S0 32 0#32)) (constantI S0 32 1#32) (id (constantI S0 32 2#32))

/-- The truncated remainder by the divisor. -/
def truncRem (x : IVec SPts 32) : IVec SPts 32 := Host.remsi x (broadcastInDim SPts ![] bcastPts divisor)

/-- The remainder with the divisor's sign: the truncated one, plus the divisor where the truncated one is non-zero and
    of the other sign. -/
def signedRem (x : IVec SPts 32) : IVec SPts 32 :=
  select
    (andi
      (cmpi .ne
        (cmpi .slt (truncRem x) (broadcastInDim SPts ![] bcastPts (constantI S0 32 0#32)))
        (broadcastInDim SPts ![] bcastPts (cmpi .slt divisor (constantI S0 32 0#32))))
      (cmpi .ne (truncRem x) (broadcastInDim SPts ![] bcastPts (constantI S0 32 0#32))))
    (addi (truncRem x) (broadcastInDim SPts ![] bcastPts divisor))
    (truncRem x)

/-- The tile of every point: 2 · rem(⌊16·x⌋, 2) + rem(⌊16·y⌋, 2). -/
def tileOf (coords : FVec F SCoords .f32) : IVec SPts 32 :=
  addi (muli (broadcastInDim SPts ![] bcastPts (constantI S0 32 2#32)) (signedRem (cellX coords))) (signedRem (cellY coords))

end Tile

/-- Expert e's weights as the right factor of a rows-by-columns product: (k, q) ↦ W[e, q, k]. -/
def expertT (W : SWts.Idx → EReal) (e : Fin 4) : Mat 512 512 := fun j => W (ix3 e (j 1 : Fin 512) (j 0 : Fin 512))

/-- "p where the tile is e, else 0". -/
def routed (t e : BitVec 32) (p : EReal) : EReal := if t = e then p else 0

/-- The result at row r, column q. -/
def Gat (tile : SPts.Idx → BitVec 32) (feats : SRows.Idx → EReal) (W : SWts.Idx → EReal) (r : Fin 65536) (q : Fin 512) : EReal :=
  Ideal.sin (Ideal.ofBits .f32 0x41F00000#32 *
    ((((Ideal.ofBits .f32 0x00000000#32
        + routed (tile (ix1 r)) 0#32 (rowDot feats (expertT W 0) r q))
        + routed (tile (ix1 r)) 1#32 (rowDot feats (expertT W 1) r q))
        + routed (tile (ix1 r)) 2#32 (rowDot feats (expertT W 2) r q))
        + routed (tile (ix1 r)) 3#32 (rowDot feats (expertT W 3) r q)))

/-- The whole result array. -/
def G (coords : FVec Ideal SCoords .f32) (feats : SRows.Idx → EReal) (W : SWts.Idx → EReal) : SRows.Idx → EReal :=
  fun i => Gat (tileOf coords) feats W (i 0) (i 1)

/-- A 0/1 mask entry (the comparison's bit read as an unsigned integer) times p is p where the words agree and 0
    where they differ: 1 · p = p, 0 · p = 0 on the extended reals. -/
theorem mask_mul (t e : BitVec 32) (p : EReal) :
    FloatOps.uitofp (F := Ideal) .f32 (IntOp.cmpi .eq t e) * p = routed t e p := by
  unfold routed
  by_cases h : t = e
  · rw [if_pos h, StableHlo.Predicate.cmpi_eq_iff.mpr h]
    show (((1 : ℕ) : ℝ) : EReal) * p = p
    rw [Nat.cast_one, EReal.coe_one, one_mul]
  · rw [if_neg h, eq_zero_of_ne_one (fun h1 => h (StableHlo.Predicate.cmpi_eq_iff.mp h1))]
    show (((0 : ℕ) : ℝ) : EReal) * p = 0
    rw [Nat.cast_zero, EReal.coe_zero, zero_mul]

/-- Selecting between p and the zero word on the same comparison is the same value. -/
theorem select_zero (t e : BitVec 32) (p : EReal) :
    Scalar.select (IntOp.cmpi .eq t e) p (Ideal.ofBits .f32 0x00000000#32) = routed t e p := by
  unfold routed
  by_cases h : t = e
  · rw [if_pos h, StableHlo.Predicate.cmpi_eq_iff.mpr h, ValueIdx.select_one]
  · rw [if_neg h, eq_zero_of_ne_one (fun h1 => h (StableHlo.Predicate.cmpi_eq_iff.mp h1)), ValueIdx.select_zero, Ideal.ofBits_zero_f32]

end Cert.RoutedSine

end
-- ==== Proof.KernelHost.lean ====
/-
  What the kernel's three staged arrays hold when its region is entered, as functions of the arguments.

  The features array is the argument itself (the change of format is the identity on the extended reals); the weights
  array is the argument with its last two axes exchanged, W'[e, k, q] = W[e, q, k]; the mask array is the one-hot of the
  tile: entry (r, e) is the bit "tile r = e" read as an unsigned integer, that is 1 or 0.
-/
import proofs.«149066_j34754875359890_1_alg».proof.Proof.Spec
import proofs.«149066_j34754875359890_1_alg».proof.Proof.Gen.KernelIdeal.Frame
import Idealize.ShloMosaic.Lib.StableHlo.Run
import Idealize.ShloMosaic.Lib.Pipeline.Value
import Idealize.ShloMosaic.Lib.ValueLayout

noncomputable section

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx Cert.RoutedSine

variable {F : FTy → Type} [FloatOps F]
variable (m : (ℓ : Loc nD τ sig) → Buf (Elt F) ℓ)

/-- The features as staged: the argument, its format changed. -/
theorem feats_eq (c : Dev nD) :
    (V m c main_v17 : S65536x512.Idx → F .bf16) = truncf .bf16 (m ((c : Thread nD τ).loc main_arg0)) bitsLt_bf16_f32 := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results

/-- The weights as staged: each expert's matrix transposed, its format changed. -/
theorem wts_eq (c : Dev nD) :
    (V m c main_v19 : S4x512x512.Idx → F .bf16)
      = truncf .bf16 (transpose S4x512x512 [0, 2, 1] (m ((c : Thread nD τ).loc main_arg2)) transposes_S4x512x512_S4x512x512_0_2_1)
          bitsLt_bf16_f32 := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results

set_option maxHeartbeats 4000000 in
/-- The mask as staged: the tile of every row compared with the column's number, the bit converted to a float. -/
theorem mask_eq (c : Dev nD) :
    (V m c main_v16 : S65536x4.Idx → F .f32)
      = uitofp .f32 (cmpi .eq
          (broadcastInDim S65536x4 ![0, 1] bcast_S65536x1_S65536x4_0_1
            (broadcastInDim S65536x1 ![0] bcast_S65536_S65536x1_0 (tileOf (m ((c : Thread nD τ).loc main_arg1)))))
          (broadcastInDim S65536x4 ![0, 1] bcast_S1x4_S65536x4_0_1 (iotaInDim S1x4 32 1))) := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

/-! ## The same, entry by entry, at the extended reals -/

section AtIdeal

variable (m : (ℓ : Loc nD τ sig) → Buf (Elt Ideal) ℓ)

/-- Entry (r, k) of the staged features is the argument's. -/
theorem feats_at (c : Dev nD) (r : Fin 65536) (k : Fin 512) :
    (V m c main_v17 : S65536x512.Idx → EReal) (ix2 r k) = (m ((c : Thread nD τ).loc main_arg0) : S65536x512.Idx → EReal) (ix2 r k) := by
  rw [feats_eq]; rfl

/-- Entry (e, k, q) of the staged weights is W[e, q, k]. -/
theorem wts_at (c : Dev nD) (e : Fin 4) (k q : Fin 512) :
    (V m c main_v19 : S4x512x512.Idx → EReal) (ix3 e k q) = (m ((c : Thread nD τ).loc main_arg2) : S4x512x512.Idx → EReal) (ix3 e q k) := by
  rw [wts_eq]
  exact transpose_ix3_021_apply (m ((c : Thread nD τ).loc main_arg2) : S4x512x512.Idx → EReal) transposes_S4x512x512_S4x512x512_0_2_1 e k q

/-- Entry (r, e) of the staged mask is the bit "tile r = e" as a float. -/
theorem mask_at (c : Dev nD) (r : Fin 65536) (e : Fin 4) :
    (V m c main_v16 : S65536x4.Idx → EReal) (ix2 r e)
      = FloatOps.uitofp (F := Ideal) .f32 (IntOp.cmpi .eq (tileOf (F := Ideal) (m ((c : Thread nD τ).loc main_arg1)) (ix1 r)) (BitVec.ofNat 32 e.val)) := by
  rw [mask_eq]
  have hA : broadcastInDim S65536x4 ![0, 1] bcast_S65536x1_S65536x4_0_1
        (broadcastInDim S65536x1 ![0] bcast_S65536_S65536x1_0 (tileOf (F := Ideal) (m ((c : Thread nD τ).loc main_arg1)))) (ix2 r e)
      = tileOf (F := Ideal) (m ((c : Thread nD τ).loc main_arg1)) (ix1 r) := by
    refine (broadcastInDim_apply _ _ _ (ix2 r e) (ix2 r (0 : Fin 1)) (fun a => match a with
      | ⟨0, _⟩ => by show r.val = (if (65536 : Nat) = 1 then 0 else r.val); rw [if_neg (by decide)]
      | ⟨1, _⟩ => by show 0 = (if (1 : Nat) = 1 then 0 else e.val); rw [if_pos rfl])).trans ?_
    exact broadcastInDim_apply _ _ _ (ix2 r (0 : Fin 1)) (ix1 r) (fun a => match a with
      | ⟨0, _⟩ => by show r.val = (if (65536 : Nat) = 1 then 0 else r.val); rw [if_neg (by decide)])
  have hB : broadcastInDim S65536x4 ![0, 1] bcast_S1x4_S65536x4_0_1 (iotaInDim S1x4 32 1) (ix2 r e) = BitVec.ofNat 32 e.val := by
    refine (broadcastInDim_apply _ _ _ (ix2 r e) (ix2 (0 : Fin 1) e) (fun a => match a with
      | ⟨0, _⟩ => by show 0 = (if (1 : Nat) = 1 then 0 else r.val); rw [if_pos rfl]
      | ⟨1, _⟩ => by show e.val = (if (4 : Nat) = 1 then 0 else e.val); rw [if_neg (by decide)])).trans ?_
    rfl
  show FloatOps.uitofp (F := Ideal) .f32 (IntOp.cmpi .eq
      (broadcastInDim S65536x4 ![0, 1] bcast_S65536x1_S65536x4_0_1
        (broadcastInDim S65536x1 ![0] bcast_S65536_S65536x1_0 (tileOf (F := Ideal) (m ((c : Thread nD τ).loc main_arg1)))) (ix2 r e))
      (broadcastInDim S65536x4 ![0, 1] bcast_S1x4_S65536x4_0_1 (iotaInDim S1x4 32 1) (ix2 r e))) = _
  rw [hA, hB]

end AtIdeal

end Cert.KernelIdeal.HostSide

end
-- ==== Proof.KernelDot.lean ====
/-
  The matrix unit's dimension numbers in this kernel are the plain rows-by-columns ones: a [1024 × 512] block of
  features against a [512 × 512] matrix, contracting the block's axis 1 with the matrix's axis 0. The left operand is
  read at (row, κ) and the right at (κ, column), κ running over the one contracted axis of extent 512.
-/
import proofs.«149066_j34754875359890_1_alg».proof.Proof.LibSageSpec
import proofs.«149066_j34754875359890_1_alg».proof.Proof.Gen.KernelIdeal

noncomputable section

namespace Cert.KernelIdeal.BlockDot

open Cert.KernelIdeal Cert.KernelIdeal.Gen Idealize.ShloMosaic Idealize.ShloMosaic.SageSpec

/-- The record of the four products of the body. -/
abbrev D : DotDims S1024x512 S512x512 S1024x512 := dot_S1024x512_S512x512_S1024x512_1_0_0_1_n_n

theorem contr_rank : D.contr.rank = 1 := by
  simp [DotDims.contr, D, dot_S1024x512_S512x512_S1024x512_1_0_0_1_n_n]

theorem contr_size (h : 0 < D.contr.rank) : D.contr.size ⟨0, h⟩ = 512 := by
  simp [DotDims.contr, D, dot_S1024x512_S512x512_S1024x512_1_0_0_1_n_n, Shape.ofList]

/-- Axis 0 of the left operand is the result's row. -/
theorem lhs_row (j : S1024x512.Idx) (k : D.contr.Idx) : (D.lhsIdx j k 0).val = (j 0).val := by
  simp [DotDims.lhsIdx, D, dot_S1024x512_S512x512_S1024x512_1_0_0_1_n_n]; rfl

/-- Axis 1 of the left operand is the contracted position. -/
theorem lhs_contr (j : S1024x512.Idx) (k : D.contr.Idx) (h : 0 < D.contr.rank) : (D.lhsIdx j k 1).val = (k ⟨0, h⟩).val := by
  simp [DotDims.lhsIdx, D, dot_S1024x512_S512x512_S1024x512_1_0_0_1_n_n]; rfl

/-- Axis 0 of the right operand is the contracted position. -/
theorem rhs_contr (j : S1024x512.Idx) (k : D.contr.Idx) (h : 0 < D.contr.rank) : (D.rhsIdx j k 0).val = (k ⟨0, h⟩).val := by
  simp [DotDims.rhsIdx, D, dot_S1024x512_S512x512_S1024x512_1_0_0_1_n_n]; rfl

/-- Axis 1 of the right operand is the result's column. -/
theorem rhs_col (j : S1024x512.Idx) (k : D.contr.Idx) : (D.rhsIdx j k 1).val = (j 1).val := by
  simp [DotDims.rhsIdx, D, dot_S1024x512_S512x512_S1024x512_1_0_0_1_n_n]; rfl

/-- So a product on the matrix unit reads, at (p, q), row p of the left operand against column q of the right one. -/
theorem plain : PlainDot (n := 1024) (k := 512) (m := 512) D where
  rank := contr_rank
  size := contr_size
  l0 := lhs_row
  l1 := lhs_contr
  r0 := rhs_contr
  r1 := rhs_col

end Cert.KernelIdeal.BlockDot

end
-- ==== Proof.KernelBody.lean ====
/-
  What one grid point leaves in its output block, entry by entry.

  The point holds a [1024 × 512] block x0 of features, a [1024 × 4] block x1 of the mask and the whole [4 × 512 × 512]
  array x2 of transposed weights. For each expert e it multiplies x0 with slab e of x2 on the matrix unit (into a zero
  accumulator: a plain sum at the extended reals), weighs the product's row p by the mask's entry (p, e), adds the four
  weighted products to a zero block from the left, and stores the sine of 30 times the sum.
-/
import proofs.«149066_j34754875359890_1_alg».proof.Proof.KernelDot
import proofs.«149066_j34754875359890_1_alg».proof.Proof.Gen.KernelIdeal.Frame
import Idealize.ShloMosaic.Lib.Pipeline.Value
import Idealize.ShloMosaic.Lib.ValueLayout

noncomputable section

open scoped BigOperators

namespace Cert.KernelIdeal.Body

open Cert.KernelIdeal Cert.KernelIdeal.Gen Idealize.ShloMosaic Idealize.ShloMosaic.ValueIdx Idealize.ShloMosaic.SageSpec
open Cert.KernelIdeal.BlockDot

/-- Slab e of the staged weights as a [512 × 512] matrix: (k, q) ↦ x2[e, k, q]. -/
def slab (x2 : S4x512x512.Idx → EReal) (e : Fin 4) : Mat 512 512 := fun j => x2 (ix3 e (j 0 : Fin 512) (j 1 : Fin 512))

theorem zero2 : (![0, 0] : Fin 2 → Nat) = fun _ => 0 := funext fun a => by fin_cases a <;> rfl

/-- The features block through the whole-block load and the trivial cast: itself. -/
theorem lhs_at (x0 : Vec Ideal S1024x512 .bf16) (p : Fin 1024) (k : Fin 512) :
    k0_pay2 (View.ld x0 r0_0) (ix2 p k) = x0 (ix2 p k) := by
  show shapeCast S1024x512 (View.ld x0 r0_0) shapeCasts_S1024x512_S1024x512 (ix2 p k) = x0 (ix2 p k)
  refine (shapeCast_apply _ _ (ix2 p k) (ix2 p k) rfl).trans ?_
  show x0 (r0_0.idx (ix2 p k)) = x0 (ix2 p k)
  congr 1; funext a; apply Fin.ext
  match a with
  | ⟨0, _⟩ => show 0 + 1 * p.val = p.val; omega
  | ⟨1, _⟩ => show 0 + 1 * k.val = k.val; omega

/-- Slab o of the weights, loaded as a [1 × 512 × 512] piece and cast to a matrix, at (k, q). -/
theorem rhs_at (x2 : Vec Ideal S4x512x512 .bf16) (o : Nat) (ho : o < 4)
    (inb : ∀ a, (![o, 0, 0] : Fin 3 → Nat) a + S1x512x512.size a ≤ S4x512x512.size a) (k q : Fin 512) :
    (shapeCast S512x512 (View.ld x2 (Rect.unit (s := S4x512x512) ![o, 0, 0] S1x512x512.size inb)) shapeCasts_S1x512x512_S512x512
        : FVec Ideal S512x512 .bf16) (ix2 k q)
      = x2 (ix3 ⟨o, ho⟩ k q) := by
  refine (shapeCast_apply _ _ (ix2 k q) (ix3 (0 : Fin 1) k q) (by
    rw [Shape.rowMajor_val_three, Shape.rowMajor_val_two]
    show (0 * 512 + k.val) * 512 + q.val = k.val * 512 + q.val
    rw [Nat.zero_mul, Nat.zero_add])).trans ?_
  show x2 ((Rect.unit (s := S4x512x512) ![o, 0, 0] S1x512x512.size inb).idx (ix3 (0 : Fin 1) k q)) = x2 (ix3 ⟨o, ho⟩ k q)
  congr 1; funext a; apply Fin.ext
  match a with
  | ⟨0, _⟩ => show o + 1 * 0 = o; omega
  | ⟨1, _⟩ => show 0 + 1 * k.val = k.val; omega
  | ⟨2, _⟩ => show 0 + 1 * q.val = q.val; omega

/-- The product of the features block with slab o, at (p, q): row p against column q of the slab. -/
theorem prod_at (x0 : Vec Ideal S1024x512 .bf16) (x2 : Vec Ideal S4x512x512 .bf16) (o : Nat) (ho : o < 4)
    (inb : ∀ a, (![o, 0, 0] : Fin 3 → Nat) a + S1x512x512.size a ≤ S4x512x512.size a) (p : Fin 1024) (q : Fin 512) :
    matmul D none (k0_pay2 (View.ld x0 r0_0))
        (shapeCast S512x512 (View.ld x2 (Rect.unit (s := S4x512x512) ![o, 0, 0] S1x512x512.size inb)) shapeCasts_S1x512x512_S512x512
          : FVec Ideal S512x512 .bf16)
        (constant S1024x512 .f32 0x00000000#32) (ix2 p q)
      = rowDot (fun i => x0 i) (slab (fun i => x2 i) ⟨o, ho⟩) p q := by
  refine (matmul_zero_at plain none _ _ (ix2 p q)).trans ?_
  unfold rowDot
  refine Finset.sum_congr rfl fun k _ => ?_
  show k0_pay2 (View.ld x0 r0_0) (ix2 p k)
      * (shapeCast S512x512 (View.ld x2 (Rect.unit (s := S4x512x512) ![o, 0, 0] S1x512x512.size inb)) shapeCasts_S1x512x512_S512x512
          : FVec Ideal S512x512 .bf16) (ix2 k q)
    = x0 (ix2 p k) * x2 (ix3 ⟨o, ho⟩ k q)
  rw [lhs_at x0 p k, rhs_at x2 o ho inb k q]

/-- A mask column spread over the 512 columns, at (p, q): the mask block's entry (p, o). -/
theorem col_at (x1 : Vec Ideal S1024x4 .f32) (o : Nat) (ho : o < 4)
    (inb : ∀ a, (![0, o] : Fin 2 → Nat) a + S1024x1.size a ≤ S1024x4.size a) (p : Fin 1024) (q : Fin 512) :
    (broadcastTo S1024x512 (shapeCast S1024x1 (View.ld x1 (Rect.unit (s := S1024x4) ![0, o] S1024x1.size inb)) shapeCasts_S1024x1_S1024x1
          : FVec Ideal S1024x1 .f32)
        broadcasts_S1024x1_S1024x512 : FVec Ideal S1024x512 .f32) (ix2 p q)
      = x1 (ix2 p ⟨o, ho⟩) := by
  refine (broadcastTo_apply _ _ (ix2 p q) (ix2 p (0 : Fin 1)) (fun a => match a with
    | ⟨0, _⟩ => by show p.val = (if (1024 : Nat) = 1 then 0 else p.val); rw [if_neg (by decide)]
    | ⟨1, _⟩ => by show 0 = (if (1 : Nat) = 1 then 0 else q.val); rw [if_pos rfl])).trans ?_
  refine (shapeCast_apply _ _ (ix2 p (0 : Fin 1)) (ix2 p (0 : Fin 1)) rfl).trans ?_
  show x1 ((Rect.unit (s := S1024x4) ![0, o] S1024x1.size inb).idx (ix2 p (0 : Fin 1))) = x1 (ix2 p ⟨o, ho⟩)
  congr 1; funext a; apply Fin.ext
  match a with
  | ⟨0, _⟩ => show 0 + 1 * p.val = p.val; omega
  | ⟨1, _⟩ => show o + 1 * 0 = o; omega

/-- One weighted product at (p, q): the mask's entry (p, o) times row p of the features against column q of slab o. -/
theorem term_at (x0 : Vec Ideal S1024x512 .bf16) (x1 : Vec Ideal S1024x4 .f32) (x2 : Vec Ideal S4x512x512 .bf16)
    (o : Nat) (ho : o < 4)
    (inbM : ∀ a, (![0, o] : Fin 2 → Nat) a + S1024x1.size a ≤ S1024x4.size a)
    (inbW : ∀ a, (![o, 0, 0] : Fin 3 → Nat) a + S1x512x512.size a ≤ S4x512x512.size a) (p : Fin 1024) (q : Fin 512) :
    mulf (broadcastTo S1024x512 (shapeCast S1024x1 (View.ld x1 (Rect.unit (s := S1024x4) ![0, o] S1024x1.size inbM)) shapeCasts_S1024x1_S1024x1
            : FVec Ideal S1024x1 .f32)
          broadcasts_S1024x1_S1024x512 : FVec Ideal S1024x512 .f32)
        (matmul D none (k0_pay2 (View.ld x0 r0_0))
          (shapeCast S512x512 (View.ld x2 (Rect.unit (s := S4x512x512) ![o, 0, 0] S1x512x512.size inbW)) shapeCasts_S1x512x512_S512x512
            : FVec Ideal S512x512 .bf16)
          (constant S1024x512 .f32 0x00000000#32)) (ix2 p q)
      = x1 (ix2 p ⟨o, ho⟩) * rowDot (fun i => x0 i) (slab (fun i => x2 i) ⟨o, ho⟩) p q := by
  rw [ValueIdx.mulf_apply, col_at x1 o ho inbM p q, prod_at x0 x2 o ho inbW p q]

/-- The zero block plus the first three weighted products, at (p, q). -/
theorem first_three_at (x0 : Vec Ideal S1024x512 .bf16) (x1 : Vec Ideal S1024x4 .f32) (x2 : Vec Ideal S4x512x512 .bf16)
    (p : Fin 1024) (q : Fin 512) :
    k0_pay3 (View.ld x0 r0_0) (View.ld x2 r0_1) (View.ld x1 r0_2) (View.ld x2 r0_3) (View.ld x1 r0_4) (View.ld x2 r0_5) (View.ld x1 r0_6) (ix2 p q)
      = ((Ideal.ofBits .f32 0x00000000#32
            + x1 (ix2 p 0) * rowDot (fun i => x0 i) (slab (fun i => x2 i) 0) p q)
            + x1 (ix2 p 1) * rowDot (fun i => x0 i) (slab (fun i => x2 i) 1) p q)
            + x1 (ix2 p 2) * rowDot (fun i => x0 i) (slab (fun i => x2 i) 2) p q := by
  unfold k0_pay3
  rw [ValueIdx.addf_apply, ValueIdx.addf_apply, ValueIdx.addf_apply,
    term_at x0 x1 x2 0 (by decide) _ _ p q, term_at x0 x1 x2 1 (by decide) _ _ p q, term_at x0 x1 x2 2 (by decide) _ _ p q]
  rfl

/-- The whole store at (p, q): the sine of 30 times the zero block plus the four weighted products. -/
theorem out_at (x0 : Vec Ideal S1024x512 .bf16) (x1 : Vec Ideal S1024x4 .f32) (x2 : Vec Ideal S4x512x512 .bf16)
    (p : Fin 1024) (q : Fin 512) :
    out0_3 x0 x1 x2 (ix2 p q)
      = Ideal.sin (Ideal.ofBits .f32 0x41F00000#32 *
          ((((Ideal.ofBits .f32 0x00000000#32
              + x1 (ix2 p 0) * rowDot (fun i => x0 i) (slab (fun i => x2 i) 0) p q)
              + x1 (ix2 p 1) * rowDot (fun i => x0 i) (slab (fun i => x2 i) 1) p q)
              + x1 (ix2 p 2) * rowDot (fun i => x0 i) (slab (fun i => x2 i) 2) p q)
              + x1 (ix2 p 3) * rowDot (fun i => x0 i) (slab (fun i => x2 i) 3) p q)) := by
  unfold out0_3
  rw [View.canon_unit_zero zero2]
  unfold k0_pay1 k0_pay4 k0_pay5
  show Ideal.sin _ = _
  refine congrArg Ideal.sin ?_
  rw [ValueIdx.mulf_apply, ValueIdx.addf_apply, first_three_at x0 x1 x2 p q, term_at x0 x1 x2 3 (by decide) _ _ p q]
  rfl

end Cert.KernelIdeal.Body

end
-- ==== Proof.KernelBlocks.lean ====
/-
  From the blocks to the whole result array, and the kernel's run.

  Grid point t works on rows 1024·t … 1024·t + 1023: its features block and its mask block are those rows of the staged
  arrays, its weights block is the whole staged array, and it writes those rows of the result. Row p of its output block
  is therefore row 1024·t + p of the function G of the arguments: the mask entry (p, e) is the bit "tile of that row = e",
  so mask times product is the routed term, and the staged weights' slab e read at (k, q) is W[e, q, k]. The 64 blocks
  tile the 65536 rows (the point that covers row r is r / 1024), so the array after the run is G everywhere.
-/
import proofs.«149066_j34754875359890_1_alg».proof.Proof.Spec
import proofs.«149066_j34754875359890_1_alg».proof.Proof.KernelHost
import proofs.«149066_j34754875359890_1_alg».proof.Proof.KernelBody
import proofs.«149066_j34754875359890_1_alg».proof.Proof.Gen.KernelIdeal.Value

noncomputable section

open scoped BigOperators

namespace Cert.KernelIdeal.KernelValue

open Cert.KernelIdeal Cert.KernelIdeal.Gen Idealize.ShloMosaic Idealize.ShloMosaic.TcCoe Idealize.SL.Sem
open Idealize.ShloMosaic.ValueIdx Idealize.ShloMosaic.SageSpec Cert.RoutedSine Cert.KernelIdeal.Body
open Idealize.ShloMosaic.Pipeline (Dat)

variable (m : (ℓ : Loc nD τ sig) → Buf (Elt Ideal) ℓ) (ρ : Dev nD → PrngReg)

/-- The three arguments as launched, at their literal types. -/
abbrev featsOf (c : Dev nD) : SRows.Idx → EReal := m ((c : Thread nD τ).loc main_arg0)
abbrev coordsOf (c : Dev nD) : FVec Ideal SCoords .f32 := m ((c : Thread nD τ).loc main_arg1)
abbrev wtsOf (c : Dev nD) : SWts.Idx → EReal := m ((c : Thread nD τ).loc main_arg2)

/-- Point t's three input blocks, at their literal types. -/
abbrev fblk (c : Dev nD) (t : Fin cfg0.N) : Vec Ideal S1024x512 .bf16 := iblk m c 0 t
abbrev mblk (c : Dev nD) (t : Fin cfg0.N) : Vec Ideal S1024x4 .f32 := iblk m c 1 t
abbrev wblk (c : Dev nD) (t : Fin cfg0.N) : Vec Ideal S4x512x512 .bf16 := iblk m c 2 t

/-- The printed index maps over the 64 points: features, mask and result move down one block of rows per point, the
    weights stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = 0 ∧ win0_2.index t (1 : Fin 3) = 0 ∧ win0_2.index t (2 : Fin 3) = 0
    ∧ win0_3.index t (0 : Fin 2) = t.val ∧ win0_3.index t (1 : Fin 2) = 0 :=
  (by decide +kernel : ∀ t : Fin grid0.N, _)

theorem point_lt (t : Fin cfg0.N) : t.val < 64 := lt_of_lt_of_eq t.isLt N_0

/-- The array row under row p of point t's blocks. -/
def rowOf (t : Fin cfg0.N) (p : Fin 1024) : Fin 65536 :=
  ⟨t.val * 1024 + p.val, by have := point_lt t; have := p.isLt; omega⟩

/-- Entry (p, k) of point t's features block is the argument's entry at the row under it. -/
theorem fblk_at (c : Dev nD) (t : Fin cfg0.N) (p : Fin 1024) (k : Fin 512) :
    fblk m c t (ix2 p k) = featsOf m c (ix2 (rowOf t p) k) := by
  obtain ⟨e0, e1, -⟩ := idx_facts t
  show V m c main_v17 (((cfg0.win 0).blk t).view.emb (ix2 p k)) = _
  have he : ((cfg0.win 0).blk t).view.emb (ix2 p k) = ix2 (rowOf t p) k := by
    funext a; apply Fin.ext
    match a with
    | ⟨0, _⟩ => show win0_0.index t (0 : Fin 2) * 1024 + 1 * p.val = t.val * 1024 + p.val; omega
    | ⟨1, _⟩ => show win0_0.index t (1 : Fin 2) * 512 + 1 * k.val = k.val; omega
  rw [he]
  exact HostSide.feats_at m c (rowOf t p) k

/-- Entry (p, e) of point t's mask block is the bit "tile of the row under it = e" as a float. -/
theorem mblk_at (c : Dev nD) (t : Fin cfg0.N) (p : Fin 1024) (e : Fin 4) :
    mblk m c t (ix2 p e)
      = FloatOps.uitofp (F := Ideal) .f32 (IntOp.cmpi .eq (tileOf (F := Ideal) (coordsOf m c) (ix1 (rowOf t p))) (BitVec.ofNat 32 e.val)) := by
  obtain ⟨-, -, e0, e1, -⟩ := idx_facts t
  show V m c main_v16 (((cfg0.win 1).blk t).view.emb (ix2 p e)) = _
  have he : ((cfg0.win 1).blk t).view.emb (ix2 p e) = ix2 (rowOf t p) e := by
    funext a; apply Fin.ext
    match a with
    | ⟨0, _⟩ => show win0_1.index t (0 : Fin 2) * 1024 + 1 * p.val = t.val * 1024 + p.val; omega
    | ⟨1, _⟩ => show win0_1.index t (1 : Fin 2) * 4 + 1 * e.val = e.val; omega
  rw [he]
  exact HostSide.mask_at m c (rowOf t p) e

/-- Entry (e, k, q) of the weights block, the same at every point, is W[e, q, k]. -/
theorem wblk_at (c : Dev nD) (t : Fin cfg0.N) (e : Fin 4) (k q : Fin 512) :
    wblk m c t (ix3 e k q) = wtsOf m c (ix3 e q k) := by
  obtain ⟨-, -, -, -, e0, e1, e2, -⟩ := idx_facts t
  show V m c main_v19 (((cfg0.win 2).blk t).view.emb (ix3 e k q)) = _
  have he : ((cfg0.win 2).blk t).view.emb (ix3 e k q) = ix3 e k q := by
    funext a; apply Fin.ext
    match a with
    | ⟨0, _⟩ => show win0_2.index t (0 : Fin 3) * 4 + 1 * e.val = e.val; omega
    | ⟨1, _⟩ => show win0_2.index t (1 : Fin 3) * 512 + 1 * k.val = k.val; omega
    | ⟨2, _⟩ => show win0_2.index t (2 : Fin 3) * 512 + 1 * q.val = q.val; omega
  rw [he]
  exact HostSide.wts_at m c e k q

/-- Row p of the features block against column q of slab e is the row under it against expert e's transposed weights. -/
theorem dot_eq (c : Dev nD) (t : Fin cfg0.N) (p : Fin 1024) (q : Fin 512) (e : Fin 4) :
    rowDot (fun i => fblk m c t i) (slab (fun i => wblk m c t i) e) p q
      = rowDot (featsOf m c) (expertT (wtsOf m c) e) (rowOf t p) q := by
  unfold rowDot
  refine Finset.sum_congr rfl fun k _ => ?_
  show fblk m c t (ix2 p k) * wblk m c t (ix3 e k q) = featsOf m c (ix2 (rowOf t p) k) * wtsOf m c (ix3 e q k)
  rw [fblk_at m c t p k, wblk_at m c t e k q]

/-- One weighted product of the body is the routed term of the row under it. -/
theorem summand (c : Dev nD) (t : Fin cfg0.N) (p : Fin 1024) (q : Fin 512) (e : Fin 4) :
    mblk m c t (ix2 p e) * rowDot (fun i => fblk m c t i) (slab (fun i => wblk m c t i) e) p q
      = routed (tileOf (F := Ideal) (coordsOf m c) (ix1 (rowOf t p))) (BitVec.ofNat 32 e.val)
          (rowDot (featsOf m c) (expertT (wtsOf m c) e) (rowOf t p) q) := by
  rw [mblk_at m c t p e, dot_eq m c t p q e, mask_mul]

/-- What point t writes back is block t of G of the arguments. -/
theorem flushed_eq (c : Dev nD) (t : Fin cfg0.N) :
    (dats m 0 c).flushed 3 t
      = ((cfg0.win 3).blk t).view.read (Elt Ideal) (G (coordsOf m c) (featsOf m c) (wtsOf m c)) := by
  rw [Value.flushed3]
  obtain ⟨-, -, -, -, -, -, -, e0, e1⟩ := idx_facts t
  funext j
  obtain ⟨p, q, rfl⟩ : ∃ (p : Fin 1024) (q : Fin 512), j = ix2 p q := ⟨j 0, j 1, eq_ix2 j⟩
  show out0_3 (fblk m c t) (mblk m c t) (wblk m c t) (ix2 p q)
      = G (coordsOf m c) (featsOf m c) (wtsOf m c) (((cfg0.win 3).blk t).view.emb (ix2 p q))
  have he : ((cfg0.win 3).blk t).view.emb (ix2 p q) = ix2 (rowOf t p) q := by
    funext a; apply Fin.ext
    match a with
    | ⟨0, _⟩ => show win0_3.index t (0 : Fin 2) * 1024 + 1 * p.val = t.val * 1024 + p.val; omega
    | ⟨1, _⟩ => show win0_3.index t (1 : Fin 2) * 512 + 1 * q.val = q.val; omega
  rw [he]
  refine (out_at (fblk m c t) (mblk m c t) (wblk m c t) p q).trans ?_
  rw [summand m c t p q 0, summand m c t p q 1, summand m c t p q 2, summand m c t p q 3]
  rfl

/-- An index of the result is in point t's block iff each coordinate is in the block's range on its axis. -/
theorem mem_blk (t : Fin cfg0.N) (i : S65536x512.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v20).slice (win0_3.rect t)).set ↔ _
  rw [View.set_slice_whole, Rect.mem_set_unit]
  exact Iff.rfl

/-- The result array after the run is G of the arguments: row r lies in the block of point r / 1024. -/
theorem final (c : Dev nD) : (dats m 0 c).arrAt 3 cfg0.N = G (coordsOf m c) (featsOf m c) (wtsOf m c) :=
  (dats m 0 c).arrAt_eq_of_cover 3 (G (coordsOf m c) (featsOf m c) (wtsOf m c)) (fun t _ => flushed_eq m c t) fun i => by
    have hi0 : (i 0).val < 65536 := (i 0).isLt
    have hi1 : (i 1).val < 512 := (i 1).isLt
    have hN : cfg0.N = 64 := N_0
    let t : Fin cfg0.N := ⟨(i 0).val / 1024, by rw [hN]; omega⟩
    obtain ⟨-, -, -, -, -, -, -, e0, e1⟩ := idx_facts t
    refine ⟨t, flush0_3 t, ?_⟩
    rw [mem_blk]
    intro a
    have ht : t.val = (i 0).val / 1024 := rfl
    match a with
    | ⟨0, _⟩ => show win0_3.index t (0 : Fin 2) * 1024 ≤ (i 0).val ∧ (i 0).val < win0_3.index t (0 : Fin 2) * 1024 + 1024; omega
    | ⟨1, _⟩ => show win0_3.index t (1 : Fin 2) * 512 ≤ (i 1).val ∧ (i 1).val < win0_3.index t (1 : Fin 2) * 512 + 512; omega

/-- The kernel's run: the result array at G of the arguments, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v20)
          = Cert.RoutedSine.G (m ((c.tc : Thread nD τ).loc main_arg1)) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final m c), (h c).2⟩) (Value.run_blocks m ρ)

end Cert.KernelIdeal.KernelValue

end
-- ==== Proof.RefRun.lean ====
/-
  The reference's @main as a straight line. Its 71 statements, with the two calls of the remainder function (21
  operations each, the inner selection of the divisor unfolded) and the four calls of the selection function (3
  operations each) written out at their call sites over the calls' own buffers, are 118 host operations: the first 60
  compute every point's tile, the other 58 the four routed layers, their sum and its sine. The run of a straight line
  is the fold of its operations' results over the launch contents.
-/
import proofs.«149066_j34754875359890_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 60: both coordinates times 16, their floors as 32-bit words, each one's remainder by 2 with the
    divisor's sign (the remainder function's 21 operations, twice), and 2 · (the first) + (the second). -/
abbrev tileOps : List (HloOp τ sig (Elt F)) :=
  [
    reshape main_arg1 main_v0 rfl shapeCasts_S1x65536x2_S65536x2,
    nullary main_cst (constant S_ .f32 0x41800000#32),
    unary main_cst main_v1 (broadcastInDim S65536x2 ![] bcast_S_S65536x2 : (⟨S_, .f32⟩ : BufTy).Contents (Elt F) → (⟨S65536x2, .f32⟩ : BufTy).Contents (Elt F)),
    binary main_v0 main_v1 main_v2 (mulf : (⟨S65536x2, .f32⟩ : BufTy).Contents (Elt F) → (⟨S65536x2, .f32⟩ : BufTy).Contents (Elt F) → (⟨S65536x2, .f32⟩ : BufTy).Contents (Elt F)),
    unary main_v2 main_v3 ((extractStridedSlice S65536x1 ![0, 0] · slices_S65536x2_S65536x1_0_0) : (⟨S65536x2, .f32⟩ : BufTy).Contents (Elt F) → (⟨S65536x1, .f32⟩ : BufTy).Contents (Elt F)),
    reshape main_v3 main_v4 rfl shapeCasts_S65536x1_S65536,
    unary main_v4 main_v5 (Host.floor : (⟨S65536, .f32⟩ : BufTy).Contents (Elt F) → (⟨S65536, .f32⟩ : BufTy).Contents (Elt F)),
    unary main_v5 main_v6 (fptosi 32 : (⟨S65536, .f32⟩ : BufTy).Contents (Elt F) → (⟨S65536, .i32⟩ : BufTy).Contents (Elt F)),
    nullary main_c (constantI S_ 32 2#32),
    TRef.unary (.of main_c : TRef sig ⟨S_, .i32⟩) (.of main_call0_v0 : TRef sig ⟨S_, .i32⟩) id,
    TRef.nullary (.of main_call0_c : TRef sig ⟨S_, .i32⟩) (constantI S_ 32 0#32),
    TRef.binary (.of main_call0_v0 : TRef sig ⟨S_, .i32⟩) (.of main_call0_c : TRef sig ⟨S_, .i32⟩) (.of main_call0_v1 : TRef sig ⟨S_, .i1⟩) (cmpi .eq),
    TRef.nullary (.of main_call0_c_0 : TRef sig ⟨S_, .i32⟩) (constantI S_ 32 1#32),
    TRef.ternary (.of main_call0_v1 : TRef sig ⟨S_, .i1⟩) (.of main_call0_c_0 : TRef sig ⟨S_, .i32⟩) (.of main_call0_v0 : TRef sig ⟨S_, .i32⟩) (.of main_call0_v2 : TRef sig ⟨S_, .i32⟩) select,
    TRef.unary main_call0_call0.v0 (.of main_call0_v3 : TRef sig ⟨S65536, .i32⟩) (broadcastInDim S65536 ![] bcast_S_S65536),
    TRef.binary (.of main_v6 : TRef sig ⟨S65536, .i32⟩) (.of main_call0_v3 : TRef sig ⟨S65536, .i32⟩) (.of main_call0_v4 : TRef sig ⟨S65536, .i32⟩) Host.remsi,
    TRef.nullary (.of main_call0_c_1 : TRef sig ⟨S_, .i32⟩) (constantI S_ 32 0#32),
    TRef.unary (.of main_call0_c_1 : TRef sig ⟨S_, .i32⟩) (.of main_call0_v5 : TRef sig ⟨S65536, .i32⟩) (broadcastInDim S65536 ![] bcast_S_S65536),
    TRef.binary (.of main_call0_v4 : TRef sig ⟨S65536, .i32⟩) (.of main_call0_v5 : TRef sig ⟨S65536, .i32⟩) (.of main_call0_v6 : TRef sig ⟨S65536, .i1⟩) (cmpi .ne),
    TRef.nullary (.of main_call0_c_2 : TRef sig ⟨S_, .i32⟩) (constantI S_ 32 0#32),
    TRef.unary (.of main_call0_c_2 : TRef sig ⟨S_, .i32⟩) (.of main_call0_v7 : TRef sig ⟨S65536, .i32⟩) (broadcastInDim S65536 ![] bcast_S_S65536),
    TRef.binary (.of main_call0_v4 : TRef sig ⟨S65536, .i32⟩) (.of main_call0_v7 : TRef sig ⟨S65536, .i32⟩) (.of main_call0_v8 : TRef sig ⟨S65536, .i1⟩) (cmpi .slt),
    TRef.nullary (.of main_call0_c_3 : TRef sig ⟨S_, .i32⟩) (constantI S_ 32 0#32),
    TRef.binary main_call0_call0.v0 (.of main_call0_c_3 : TRef sig ⟨S_, .i32⟩) (.of main_call0_v9 : TRef sig ⟨S_, .i1⟩) (cmpi .slt),
    TRef.unary (.of main_call0_v9 : TRef sig ⟨S_, .i1⟩) (.of main_call0_v10 : TRef sig ⟨S65536, .i1⟩) (broadcastInDim S65536 ![] bcast_S_S65536),
    TRef.binary (.of main_call0_v8 : TRef sig ⟨S65536, .i1⟩) (.of main_call0_v10 : TRef sig ⟨S65536, .i1⟩) (.of main_call0_v11 : TRef sig ⟨S65536, .i1⟩) (cmpi .ne),
    TRef.binary (.of main_call0_v11 : TRef sig ⟨S65536, .i1⟩) (.of main_call0_v6 : TRef sig ⟨S65536, .i1⟩) (.of main_call0_v12 : TRef sig ⟨S65536, .i1⟩) andi,
    TRef.unary main_call0_call0.v0 (.of main_call0_v13 : TRef sig ⟨S65536, .i32⟩) (broadcastInDim S65536 ![] bcast_S_S65536),
    TRef.binary (.of main_call0_v4 : TRef sig ⟨S65536, .i32⟩) (.of main_call0_v13 : TRef sig ⟨S65536, .i32⟩) (.of main_call0_v14 : TRef sig ⟨S65536, .i32⟩) addi,
    TRef.ternary (.of main_call0_v12 : TRef sig ⟨S65536, .i1⟩) (.of main_call0_v14 : TRef sig ⟨S65536, .i32⟩) (.of main_call0_v4 : TRef sig ⟨S65536, .i32⟩) (.of main_v7 : TRef sig ⟨S65536, .i32⟩) select,
    unary main_v2 main_v8 ((extractStridedSlice S65536x1 ![0, 1] · slices_S65536x2_S65536x1_0_1) : (⟨S65536x2, .f32⟩ : BufTy).Contents (Elt F) → (⟨S65536x1, .f32⟩ : BufTy).Contents (Elt F)),
    reshape main_v8 main_v9 rfl shapeCasts_S65536x1_S65536,
    unary main_v9 main_v10 (Host.floor : (⟨S65536, .f32⟩ : BufTy).Contents (Elt F) → (⟨S65536, .f32⟩ : BufTy).Contents (Elt F)),
    unary main_v10 main_v11 (fptosi 32 : (⟨S65536, .f32⟩ : BufTy).Contents (Elt F) → (⟨S65536, .i32⟩ : BufTy).Contents (Elt F)),
    nullary main_c_0 (constantI S_ 32 2#32),
    TRef.unary (.of main_c_0 : TRef sig ⟨S_, .i32⟩) (.of main_call1_v0 : TRef sig ⟨S_, .i32⟩) id,
    TRef.nullary (.of main_call1_c : TRef sig ⟨S_, .i32⟩) (constantI S_ 32 0#32),
    TRef.binary (.of main_call1_v0 : TRef sig ⟨S_, .i32⟩) (.of main_call1_c : TRef sig ⟨S_, .i32⟩) (.of main_call1_v1 : TRef sig ⟨S_, .i1⟩) (cmpi .eq),
    TRef.nullary (.of main_call1_c_0 : TRef sig ⟨S_, .i32⟩) (constantI S_ 32 1#32),
    TRef.ternary (.of main_call1_v1 : TRef sig ⟨S_, .i1⟩) (.of main_call1_c_0 : TRef sig ⟨S_, .i32⟩) (.of main_call1_v0 : TRef sig ⟨S_, .i32⟩) (.of main_call1_v2 : TRef sig ⟨S_, .i32⟩) select,
    TRef.unary main_call1_call0.v0 (.of main_call1_v3 : TRef sig ⟨S65536, .i32⟩) (broadcastInDim S65536 ![] bcast_S_S65536),
    TRef.binary (.of main_v11 : TRef sig ⟨S65536, .i32⟩) (.of main_call1_v3 : TRef sig ⟨S65536, .i32⟩) (.of main_call1_v4 : TRef sig ⟨S65536, .i32⟩) Host.remsi,
    TRef.nullary (.of main_call1_c_1 : TRef sig ⟨S_, .i32⟩) (constantI S_ 32 0#32),
    TRef.unary (.of main_call1_c_1 : TRef sig ⟨S_, .i32⟩) (.of main_call1_v5 : TRef sig ⟨S65536, .i32⟩) (broadcastInDim S65536 ![] bcast_S_S65536),
    TRef.binary (.of main_call1_v4 : TRef sig ⟨S65536, .i32⟩) (.of main_call1_v5 : TRef sig ⟨S65536, .i32⟩) (.of main_call1_v6 : TRef sig ⟨S65536, .i1⟩) (cmpi .ne),
    TRef.nullary (.of main_call1_c_2 : TRef sig ⟨S_, .i32⟩) (constantI S_ 32 0#32),
    TRef.unary (.of main_call1_c_2 : TRef sig ⟨S_, .i32⟩) (.of main_call1_v7 : TRef sig ⟨S65536, .i32⟩) (broadcastInDim S65536 ![] bcast_S_S65536),
    TRef.binary (.of main_call1_v4 : TRef sig ⟨S65536, .i32⟩) (.of main_call1_v7 : TRef sig ⟨S65536, .i32⟩) (.of main_call1_v8 : TRef sig ⟨S65536, .i1⟩) (cmpi .slt),
    TRef.nullary (.of main_call1_c_3 : TRef sig ⟨S_, .i32⟩) (constantI S_ 32 0#32),
    TRef.binary main_call1_call0.v0 (.of main_call1_c_3 : TRef sig ⟨S_, .i32⟩) (.of main_call1_v9 : TRef sig ⟨S_, .i1⟩) (cmpi .slt),
    TRef.unary (.of main_call1_v9 : TRef sig ⟨S_, .i1⟩) (.of main_call1_v10 : TRef sig ⟨S65536, .i1⟩) (broadcastInDim S65536 ![] bcast_S_S65536),
    TRef.binary (.of main_call1_v8 : TRef sig ⟨S65536, .i1⟩) (.of main_call1_v10 : TRef sig ⟨S65536, .i1⟩) (.of main_call1_v11 : TRef sig ⟨S65536, .i1⟩) (cmpi .ne),
    TRef.binary (.of main_call1_v11 : TRef sig ⟨S65536, .i1⟩) (.of main_call1_v6 : TRef sig ⟨S65536, .i1⟩) (.of main_call1_v12 : TRef sig ⟨S65536, .i1⟩) andi,
    TRef.unary main_call1_call0.v0 (.of main_call1_v13 : TRef sig ⟨S65536, .i32⟩) (broadcastInDim S65536 ![] bcast_S_S65536),
    TRef.binary (.of main_call1_v4 : TRef sig ⟨S65536, .i32⟩) (.of main_call1_v13 : TRef sig ⟨S65536, .i32⟩) (.of main_call1_v14 : TRef sig ⟨S65536, .i32⟩) addi,
    TRef.ternary (.of main_call1_v12 : TRef sig ⟨S65536, .i1⟩) (.of main_call1_v14 : TRef sig ⟨S65536, .i32⟩) (.of main_call1_v4 : TRef sig ⟨S65536, .i32⟩) (.of main_v12 : TRef sig ⟨S65536, .i32⟩) select,
    nullary main_c_1 (constantI S_ 32 2#32),
    unary main_c_1 main_v13 (broadcastInDim S65536 ![] bcast_S_S65536 : (⟨S_, .i32⟩ : BufTy).Contents (Elt F) → (⟨S65536, .i32⟩ : BufTy).Contents (Elt F)),
    binary main_v13 main_v7 main_v14 (muli : (⟨S65536, .i32⟩ : BufTy).Contents (Elt F) → (⟨S65536, .i32⟩ : BufTy).Contents (Elt F) → (⟨S65536, .i32⟩ : BufTy).Contents (Elt F)),
    binary main_v14 main_v12 main_v15 (addi : (⟨S65536, .i32⟩ : BufTy).Contents (Elt F) → (⟨S65536, .i32⟩ : BufTy).Contents (Elt F) → (⟨S65536, .i32⟩ : BufTy).Contents (Elt F)) ]

/-- Operations 61 … 118: the zero array; per expert e = 0 … 3 the comparison of the tile with e, the expert's weights
    sliced, reshaped and transposed, the rows-by-columns product, the selection between the product and zero (the
    selection function's 3 operations) and its addition to the running sum; then 30 times the sum, and its sine. -/
abbrev mixOps : List (HloOp τ sig (Elt F)) :=
  [
    nullary main_cst_2 (constant S_ .f32 0x00000000#32),
    unary main_cst_2 main_v16 (broadcastInDim S65536x512 ![] bcast_S_S65536x512 : (⟨S_, .f32⟩ : BufTy).Contents (Elt F) → (⟨S65536x512, .f32⟩ : BufTy).Contents (Elt F)),
    nullary main_c_3 (constantI S_ 32 0#32),
    unary main_c_3 main_v17 (broadcastInDim S65536 ![] bcast_S_S65536 : (⟨S_, .i32⟩ : BufTy).Contents (Elt F) → (⟨S65536, .i32⟩ : BufTy).Contents (Elt F)),
    binary main_v15 main_v17 main_v18 (cmpi .eq : (⟨S65536, .i32⟩ : BufTy).Contents (Elt F) → (⟨S65536, .i32⟩ : BufTy).Contents (Elt F) → (⟨S65536, .i1⟩ : BufTy).Contents (Elt F)),
    unary main_v18 main_v19 (broadcastInDim S65536x1 ![0] bcast_S65536_S65536x1_0 : (⟨S65536, .i1⟩ : BufTy).Contents (Elt F) → (⟨S65536x1, .i1⟩ : BufTy).Contents (Elt F)),
    unary main_arg2 main_v20 ((extractStridedSlice S1x512x512 ![0, 0, 0] · slices_S4x512x512_S1x512x512_0_0_0) : (⟨S4x512x512, .f32⟩ : BufTy).Contents (Elt F) → (⟨S1x512x512, .f32⟩ : BufTy).Contents (Elt F)),
    reshape main_v20 main_v21 rfl shapeCasts_S1x512x512_S512x512,
    unary main_v21 main_v22 ((transpose S512x512 [1, 0] · transposes_S512x512_S512x512_1_0) : (⟨S512x512, .f32⟩ : BufTy).Contents (Elt F) → (⟨S512x512, .f32⟩ : BufTy).Contents (Elt F)),
    binary main_arg0 main_v22 main_v23 ((fun l r => Host.dotGeneral dot_S65536x512_S512x512_S65536x512_1_0_0_1_n_n none l r) : (⟨S65536x512, .f32⟩ : BufTy).Contents (Elt F) → (⟨S512x512, .f32⟩ : BufTy).Contents (Elt F) → (⟨S65536x512, .f32⟩ : BufTy).Contents (Elt F)),
    nullary main_cst_4 (constant S_ .f32 0x00000000#32),
    TRef.unary (.of main_v19 : TRef sig ⟨S65536x1, .i1⟩) (.of main_call2_v0 : TRef sig ⟨S65536x512, .i1⟩) (broadcastInDim S65536x512 ![0, 1] bcast_S65536x1_S65536x512_0_1),
    TRef.unary (.of main_cst_4 : TRef sig ⟨S_, .f32⟩) (.of main_call2_v1 : TRef sig ⟨S65536x512, .f32⟩) (broadcastInDim S65536x512 ![] bcast_S_S65536x512),
    TRef.ternary (.of main_call2_v0 : TRef sig ⟨S65536x512, .i1⟩) (.of main_v23 : TRef sig ⟨S65536x512, .f32⟩) (.of main_call2_v1 : TRef sig ⟨S65536x512, .f32⟩) (.of main_v24 : TRef sig ⟨S65536x512, .f32⟩) select,
    binary main_v16 main_v24 main_v25 (addf : (⟨S65536x512, .f32⟩ : BufTy).Contents (Elt F) → (⟨S65536x512, .f32⟩ : BufTy).Contents (Elt F) → (⟨S65536x512, .f32⟩ : BufTy).Contents (Elt F)),
    nullary main_c_5 (constantI S_ 32 1#32),
    unary main_c_5 main_v26 (broadcastInDim S65536 ![] bcast_S_S65536 : (⟨S_, .i32⟩ : BufTy).Contents (Elt F) → (⟨S65536, .i32⟩ : BufTy).Contents (Elt F)),
    binary main_v15 main_v26 main_v27 (cmpi .eq : (⟨S65536, .i32⟩ : BufTy).Contents (Elt F) → (⟨S65536, .i32⟩ : BufTy).Contents (Elt F) → (⟨S65536, .i1⟩ : BufTy).Contents (Elt F)),
    unary main_v27 main_v28 (broadcastInDim S65536x1 ![0] bcast_S65536_S65536x1_0 : (⟨S65536, .i1⟩ : BufTy).Contents (Elt F) → (⟨S65536x1, .i1⟩ : BufTy).Contents (Elt F)),
    unary main_arg2 main_v29 ((extractStridedSlice S1x512x512 ![1, 0, 0] · slices_S4x512x512_S1x512x512_1_0_0) : (⟨S4x512x512, .f32⟩ : BufTy).Contents (Elt F) → (⟨S1x512x512, .f32⟩ : BufTy).Contents (Elt F)),
    reshape main_v29 main_v30 rfl shapeCasts_S1x512x512_S512x512,
    unary main_v30 main_v31 ((transpose S512x512 [1, 0] · transposes_S512x512_S512x512_1_0) : (⟨S512x512, .f32⟩ : BufTy).Contents (Elt F) → (⟨S512x512, .f32⟩ : BufTy).Contents (Elt F)),
    binary main_arg0 main_v31 main_v32 ((fun l r => Host.dotGeneral dot_S65536x512_S512x512_S65536x512_1_0_0_1_n_n none l r) : (⟨S65536x512, .f32⟩ : BufTy).Contents (Elt F) → (⟨S512x512, .f32⟩ : BufTy).Contents (Elt F) → (⟨S65536x512, .f32⟩ : BufTy).Contents (Elt F)),
    nullary main_cst_6 (constant S_ .f32 0x00000000#32),
    TRef.unary (.of main_v28 : TRef sig ⟨S65536x1, .i1⟩) (.of main_call3_v0 : TRef sig ⟨S65536x512, .i1⟩) (broadcastInDim S65536x512 ![0, 1] bcast_S65536x1_S65536x512_0_1),
    TRef.unary (.of main_cst_6 : TRef sig ⟨S_, .f32⟩) (.of main_call3_v1 : TRef sig ⟨S65536x512, .f32⟩) (broadcastInDim S65536x512 ![] bcast_S_S65536x512),
    TRef.ternary (.of main_call3_v0 : TRef sig ⟨S65536x512, .i1⟩) (.of main_v32 : TRef sig ⟨S65536x512, .f32⟩) (.of main_call3_v1 : TRef sig ⟨S65536x512, .f32⟩) (.of main_v33 : TRef sig ⟨S65536x512, .f32⟩) select,
    binary main_v25 main_v33 main_v34 (addf : (⟨S65536x512, .f32⟩ : BufTy).Contents (Elt F) → (⟨S65536x512, .f32⟩ : BufTy).Contents (Elt F) → (⟨S65536x512, .f32⟩ : BufTy).Contents (Elt F)),
    nullary main_c_7 (constantI S_ 32 2#32),
    unary main_c_7 main_v35 (broadcastInDim S65536 ![] bcast_S_S65536 : (⟨S_, .i32⟩ : BufTy).Contents (Elt F) → (⟨S65536, .i32⟩ : BufTy).Contents (Elt F)),
    binary main_v15 main_v35 main_v36 (cmpi .eq : (⟨S65536, .i32⟩ : BufTy).Contents (Elt F) → (⟨S65536, .i32⟩ : BufTy).Contents (Elt F) → (⟨S65536, .i1⟩ : BufTy).Contents (Elt F)),
    unary main_v36 main_v37 (broadcastInDim S65536x1 ![0] bcast_S65536_S65536x1_0 : (⟨S65536, .i1⟩ : BufTy).Contents (Elt F) → (⟨S65536x1, .i1⟩ : BufTy).Contents (Elt F)),
    unary main_arg2 main_v38 ((extractStridedSlice S1x512x512 ![2, 0, 0] · slices_S4x512x512_S1x512x512_2_0_0) : (⟨S4x512x512, .f32⟩ : BufTy).Contents (Elt F) → (⟨S1x512x512, .f32⟩ : BufTy).Contents (Elt F)),
    reshape main_v38 main_v39 rfl shapeCasts_S1x512x512_S512x512,
    unary main_v39 main_v40 ((transpose S512x512 [1, 0] · transposes_S512x512_S512x512_1_0) : (⟨S512x512, .f32⟩ : BufTy).Contents (Elt F) → (⟨S512x512, .f32⟩ : BufTy).Contents (Elt F)),
    binary main_arg0 main_v40 main_v41 ((fun l r => Host.dotGeneral dot_S65536x512_S512x512_S65536x512_1_0_0_1_n_n none l r) : (⟨S65536x512, .f32⟩ : BufTy).Contents (Elt F) → (⟨S512x512, .f32⟩ : BufTy).Contents (Elt F) → (⟨S65536x512, .f32⟩ : BufTy).Contents (Elt F)),
    nullary main_cst_8 (constant S_ .f32 0x00000000#32),
    TRef.unary (.of main_v37 : TRef sig ⟨S65536x1, .i1⟩) (.of main_call4_v0 : TRef sig ⟨S65536x512, .i1⟩) (broadcastInDim S65536x512 ![0, 1] bcast_S65536x1_S65536x512_0_1),
    TRef.unary (.of main_cst_8 : TRef sig ⟨S_, .f32⟩) (.of main_call4_v1 : TRef sig ⟨S65536x512, .f32⟩) (broadcastInDim S65536x512 ![] bcast_S_S65536x512),
    TRef.ternary (.of main_call4_v0 : TRef sig ⟨S65536x512, .i1⟩) (.of main_v41 : TRef sig ⟨S65536x512, .f32⟩) (.of main_call4_v1 : TRef sig ⟨S65536x512, .f32⟩) (.of main_v42 : TRef sig ⟨S65536x512, .f32⟩) select,
    binary main_v34 main_v42 main_v43 (addf : (⟨S65536x512, .f32⟩ : BufTy).Contents (Elt F) → (⟨S65536x512, .f32⟩ : BufTy).Contents (Elt F) → (⟨S65536x512, .f32⟩ : BufTy).Contents (Elt F)),
    nullary main_c_9 (constantI S_ 32 3#32),
    unary main_c_9 main_v44 (broadcastInDim S65536 ![] bcast_S_S65536 : (⟨S_, .i32⟩ : BufTy).Contents (Elt F) → (⟨S65536, .i32⟩ : BufTy).Contents (Elt F)),
    binary main_v15 main_v44 main_v45 (cmpi .eq : (⟨S65536, .i32⟩ : BufTy).Contents (Elt F) → (⟨S65536, .i32⟩ : BufTy).Contents (Elt F) → (⟨S65536, .i1⟩ : BufTy).Contents (Elt F)),
    unary main_v45 main_v46 (broadcastInDim S65536x1 ![0] bcast_S65536_S65536x1_0 : (⟨S65536, .i1⟩ : BufTy).Contents (Elt F) → (⟨S65536x1, .i1⟩ : BufTy).Contents (Elt F)),
    unary main_arg2 main_v47 ((extractStridedSlice S1x512x512 ![3, 0, 0] · slices_S4x512x512_S1x512x512_3_0_0) : (⟨S4x512x512, .f32⟩ : BufTy).Contents (Elt F) → (⟨S1x512x512, .f32⟩ : BufTy).Contents (Elt F)),
    reshape main_v47 main_v48 rfl shapeCasts_S1x512x512_S512x512,
    unary main_v48 main_v49 ((transpose S512x512 [1, 0] · transposes_S512x512_S512x512_1_0) : (⟨S512x512, .f32⟩ : BufTy).Contents (Elt F) → (⟨S512x512, .f32⟩ : BufTy).Contents (Elt F)),
    binary main_arg0 main_v49 main_v50 ((fun l r => Host.dotGeneral dot_S65536x512_S512x512_S65536x512_1_0_0_1_n_n none l r) : (⟨S65536x512, .f32⟩ : BufTy).Contents (Elt F) → (⟨S512x512, .f32⟩ : BufTy).Contents (Elt F) → (⟨S65536x512, .f32⟩ : BufTy).Contents (Elt F)),
    nullary main_cst_10 (constant S_ .f32 0x00000000#32),
    TRef.unary (.of main_v46 : TRef sig ⟨S65536x1, .i1⟩) (.of main_call5_v0 : TRef sig ⟨S65536x512, .i1⟩) (broadcastInDim S65536x512 ![0, 1] bcast_S65536x1_S65536x512_0_1),
    TRef.unary (.of main_cst_10 : TRef sig ⟨S_, .f32⟩) (.of main_call5_v1 : TRef sig ⟨S65536x512, .f32⟩) (broadcastInDim S65536x512 ![] bcast_S_S65536x512),
    TRef.ternary (.of main_call5_v0 : TRef sig ⟨S65536x512, .i1⟩) (.of main_v50 : TRef sig ⟨S65536x512, .f32⟩) (.of main_call5_v1 : TRef sig ⟨S65536x512, .f32⟩) (.of main_v51 : TRef sig ⟨S65536x512, .f32⟩) select,
    binary main_v43 main_v51 main_v52 (addf : (⟨S65536x512, .f32⟩ : BufTy).Contents (Elt F) → (⟨S65536x512, .f32⟩ : BufTy).Contents (Elt F) → (⟨S65536x512, .f32⟩ : BufTy).Contents (Elt F)),
    nullary main_cst_11 (constant S_ .f32 0x41F00000#32),
    unary main_cst_11 main_v53 (broadcastInDim S65536x512 ![] bcast_S_S65536x512 : (⟨S_, .f32⟩ : BufTy).Contents (Elt F) → (⟨S65536x512, .f32⟩ : BufTy).Contents (Elt F)),
    binary main_v53 main_v52 main_v54 (mulf : (⟨S65536x512, .f32⟩ : BufTy).Contents (Elt F) → (⟨S65536x512, .f32⟩ : BufTy).Contents (Elt F) → (⟨S65536x512, .f32⟩ : BufTy).Contents (Elt F)),
    unary main_v54 main_v55 (Host.sin : (⟨S65536x512, .f32⟩ : BufTy).Contents (Elt F) → (⟨S65536x512, .f32⟩ : BufTy).Contents (Elt F)) ]

/-- @main's 118 operations, in order. -/
abbrev ops : List (HloOp τ sig (Elt F)) := tileOps ++ mixOps

/-- The fold over a concatenation is the fold over the second list from the fold over the first. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

set_option maxRecDepth 4096 in
set_option maxHeartbeats 4000000 in
/-- @main is that straight line: the functions' definitions unfolded at their calls, both sides are one chain of
    steps once sequencing is reassociated. -/
theorem main_eq (c : Dev nD) : main (F := F) c = seq ops := by
  simp only [main, main_part0, main_part1, fn_remainder.body, fn_where.body, fn_where_0.body, seq_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem tileOps_sub : (tileOps : List (HloOp τ sig (Elt F))).Forall fun op => op.bufs ⊆ tcRefs τ sig :=
  ⟨
    reshape_bufs_sub .., nullary_bufs_sub .., unary_bufs_sub .., binary_bufs_sub .., unary_bufs_sub .., reshape_bufs_sub ..,
    unary_bufs_sub .., unary_bufs_sub .., nullary_bufs_sub .., unary_bufs_sub .., nullary_bufs_sub .., binary_bufs_sub ..,
    nullary_bufs_sub .., ternary_bufs_sub .., unary_bufs_sub .., binary_bufs_sub .., nullary_bufs_sub .., unary_bufs_sub ..,
    binary_bufs_sub .., nullary_bufs_sub .., unary_bufs_sub .., binary_bufs_sub .., nullary_bufs_sub .., binary_bufs_sub ..,
    unary_bufs_sub .., binary_bufs_sub .., binary_bufs_sub .., unary_bufs_sub .., binary_bufs_sub .., ternary_bufs_sub ..,
    unary_bufs_sub .., reshape_bufs_sub .., unary_bufs_sub .., unary_bufs_sub .., nullary_bufs_sub .., unary_bufs_sub ..,
    nullary_bufs_sub .., binary_bufs_sub .., nullary_bufs_sub .., ternary_bufs_sub .., unary_bufs_sub .., binary_bufs_sub ..,
    nullary_bufs_sub .., unary_bufs_sub .., binary_bufs_sub .., nullary_bufs_sub .., unary_bufs_sub .., binary_bufs_sub ..,
    nullary_bufs_sub .., binary_bufs_sub .., unary_bufs_sub .., binary_bufs_sub .., binary_bufs_sub .., unary_bufs_sub ..,
    binary_bufs_sub .., ternary_bufs_sub .., nullary_bufs_sub .., unary_bufs_sub .., binary_bufs_sub .., binary_bufs_sub ..⟩

theorem mixOps_sub : (mixOps : List (HloOp τ sig (Elt F))).Forall fun op => op.bufs ⊆ tcRefs τ sig :=
  ⟨
    nullary_bufs_sub .., unary_bufs_sub .., nullary_bufs_sub .., unary_bufs_sub .., binary_bufs_sub .., unary_bufs_sub ..,
    unary_bufs_sub .., reshape_bufs_sub .., unary_bufs_sub .., binary_bufs_sub .., nullary_bufs_sub .., unary_bufs_sub ..,
    unary_bufs_sub .., ternary_bufs_sub .., binary_bufs_sub .., nullary_bufs_sub .., unary_bufs_sub .., binary_bufs_sub ..,
    unary_bufs_sub .., unary_bufs_sub .., reshape_bufs_sub .., unary_bufs_sub .., binary_bufs_sub .., nullary_bufs_sub ..,
    unary_bufs_sub .., unary_bufs_sub .., ternary_bufs_sub .., binary_bufs_sub .., nullary_bufs_sub .., unary_bufs_sub ..,
    binary_bufs_sub .., unary_bufs_sub .., unary_bufs_sub .., reshape_bufs_sub .., unary_bufs_sub .., binary_bufs_sub ..,
    nullary_bufs_sub .., unary_bufs_sub .., unary_bufs_sub .., ternary_bufs_sub .., binary_bufs_sub .., nullary_bufs_sub ..,
    unary_bufs_sub .., binary_bufs_sub .., unary_bufs_sub .., unary_bufs_sub .., reshape_bufs_sub .., unary_bufs_sub ..,
    binary_bufs_sub .., nullary_bufs_sub .., unary_bufs_sub .., unary_bufs_sub .., ternary_bufs_sub .., binary_bufs_sub ..,
    nullary_bufs_sub .., unary_bufs_sub .., binary_bufs_sub .., unary_bufs_sub ..⟩

theorem ops_sub : (ops : List (HloOp τ sig (Elt F))).Forall fun op => op.bufs ⊆ tcRefs τ sig :=
  List.forall_iff_forall_mem.mpr fun op h => (List.mem_append.mp h).elim
    (List.forall_iff_forall_mem.mp tileOps_sub op) (List.forall_iff_forall_mem.mp mixOps_sub op)

/-- No operation of the line leaves its result to be chosen. -/
theorem ops_fresh : ∀ op ∈ (ops : List (HloOp τ sig (Elt F))), op.fresh = ∅ := by
  intro _ h
  repeat (cases h with | head => rfl | tail _ h => ?_)
  exact nomatch h

/-- On every device, for any float values, from any memory with zero counters: every weakly fair execution of @main
    terminates, and every final state has each buffer at the fold of the 118 operations over the launch contents. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after mixOps (after tileOps (launchContents m c)) (b : DevRef τ sig) :=
  (θ_run defs _ _).mono (fun _ h c b => (h c b).trans (congrFun (after_app tileOps mixOps _) _))
    (run_seq scopedRefs_eq scopedSems_eq defs main (fun _ => ops) main_eq (fun _ => ops_sub) m ρ (fun _ => ops_fresh))

end Cert.ReferenceIdeal.RefRun

end
-- ==== Proof.RefTerm.lean ====
/-
  The reference's last 58 operations as one term of the tile, the features and the weights, and that term read at an
  index. Expert e's summand is a selection, on "the row's tile is e", between the rows-by-columns product of the
  features with the e-th weight matrix transposed and zero; at (r, q) that is the row-by-column sum
  Σ_k feats[r, k] · W[e, q, k] where the tile of r is e, and 0 elsewhere. The result is the sine of 30 times the four
  summands added, in order, to zero.
-/
import proofs.«149066_j34754875359890_1_alg».proof.Proof.Spec
import proofs.«149066_j34754875359890_1_alg».proof.Proof.Gen.ReferenceIdeal
import Idealize.ShloMosaic.Lib.ValueLayout

noncomputable section

open scoped BigOperators

namespace Cert.ReferenceIdeal.RefTerm

open Cert.ReferenceIdeal Cert.ReferenceIdeal.Gen Idealize.ShloMosaic Idealize.ShloMosaic.ValueIdx Idealize.ShloMosaic.SageSpec

section Term

variable {F : FTy → Type} [FloatOps F]

/-- Expert o's weights as the product's right factor: the o-th 512 × 512 slice of the weights, its unit axis dropped,
    transposed. -/
def expertMat (o : Nat) (hs : S4x512x512.Slices ![o, 0, 0] S1x512x512) (W : FVec F S4x512x512 .f32) : FVec F S512x512 .f32 :=
  transpose S512x512 [1, 0]
    (shapeCast S512x512 (extractStridedSlice S1x512x512 ![o, 0, 0] W hs) shapeCasts_S1x512x512_S512x512)
    transposes_S512x512_S512x512_1_0

/-- "The row's tile is b", as a mask over rows and columns. -/
def tileMask (t : IVec S65536 32) (b : BitVec 32) : IVec S65536x512 1 :=
  broadcastInDim S65536x512 ![0, 1] bcast_S65536x1_S65536x512_0_1
    (broadcastInDim S65536x1 ![0] bcast_S65536_S65536x1_0
      (cmpi .eq t (broadcastInDim S65536 ![] bcast_S_S65536 (constantI S_ 32 b))))

/-- One expert's summand: the product of the features with the expert's matrix where the row's tile is b, else zero. -/
def summand (t : IVec S65536 32) (b : BitVec 32) (x : FVec F S65536x512 .f32) (Wt : FVec F S512x512 .f32) :
    FVec F S65536x512 .f32 :=
  select (tileMask t b)
    (Host.dotGeneral dot_S65536x512_S512x512_S65536x512_1_0_0_1_n_n none x Wt)
    (broadcastInDim S65536x512 ![] bcast_S_S65536x512 (constant S_ .f32 0x00000000#32))

/-- The result: the sine of 30 times (the four summands added in order to zero). -/
def mixTerm (t : IVec S65536 32) (x : FVec F S65536x512 .f32) (W : FVec F S4x512x512 .f32) : FVec F S65536x512 .f32 :=
  Host.sin (mulf (broadcastInDim S65536x512 ![] bcast_S_S65536x512 (constant S_ .f32 0x41F00000#32))
    (addf (addf (addf (addf (broadcastInDim S65536x512 ![] bcast_S_S65536x512 (constant S_ .f32 0x00000000#32))
      (summand t 0#32 x (expertMat 0 slices_S4x512x512_S1x512x512_0_0_0 W)))
      (summand t 1#32 x (expertMat 1 slices_S4x512x512_S1x512x512_1_0_0 W)))
      (summand t 2#32 x (expertMat 2 slices_S4x512x512_S1x512x512_2_0_0 W)))
      (summand t 3#32 x (expertMat 3 slices_S4x512x512_S1x512x512_3_0_0 W))))

/-- The right factor at (k, q) is the weight W[e, q, k]. -/
theorem expertMat_apply (o : Nat) (hs : S4x512x512.Slices ![o, 0, 0] S1x512x512) (W : FVec F S4x512x512 .f32)
    (e : Fin 4) (ho : e.val = o) (k q : Fin 512) : expertMat o hs W (ix2 k q) = W (ix3 e q k) := by
  unfold expertMat
  refine (transpose_ix2_apply _ _ k q).trans ?_
  refine (shapeCast_1ab_ab_apply _ _ q k).trans ?_
  exact extractStridedSlice_apply _ W hs _ (ix3 e q k) fun a => match a with
    | ⟨0, _⟩ => by show e.val = o + 0; omega
    | ⟨1, _⟩ => by show q.val = 0 + q.val; omega
    | ⟨2, _⟩ => by show k.val = 0 + k.val; omega

/-- The mask at (r, q) is the comparison of row r's tile with b. -/
theorem tileMask_apply (t : IVec S65536 32) (b : BitVec 32) (r : Fin 65536) (q : Fin 512) :
    tileMask t b (ix2 r q) = IntOp.cmpi .eq (t (ix1 r)) b := by
  unfold tileMask
  refine (broadcastInDim_apply _ _ _ (ix2 r q) (ix2 r (0 : Fin 1)) fun a => match a with
    | ⟨0, _⟩ => rfl
    | ⟨1, _⟩ => rfl).trans ?_
  refine (broadcastInDim_apply _ _ _ (ix2 r (0 : Fin 1)) (ix1 r) fun a => match a with
    | ⟨0, _⟩ => rfl).trans ?_
  rfl

end Term

/-! ## The product's dimension numbers: rows by columns -/

theorem contr_rank : (dot_S65536x512_S512x512_S65536x512_1_0_0_1_n_n).contr.rank = 1 := by
  simp [DotDims.contr, dot_S65536x512_S512x512_S65536x512_1_0_0_1_n_n]
theorem contr_size (h : 0 < (dot_S65536x512_S512x512_S65536x512_1_0_0_1_n_n).contr.rank) : (dot_S65536x512_S512x512_S65536x512_1_0_0_1_n_n).contr.size ⟨0, h⟩ = 512 := by
  simp [DotDims.contr, dot_S65536x512_S512x512_S65536x512_1_0_0_1_n_n, Shape.ofList]
theorem lhs_row (j : S65536x512.Idx) (k : (dot_S65536x512_S512x512_S65536x512_1_0_0_1_n_n).contr.Idx) : ((dot_S65536x512_S512x512_S65536x512_1_0_0_1_n_n).lhsIdx j k 0).val = (j 0).val := by
  simp [DotDims.lhsIdx, dot_S65536x512_S512x512_S65536x512_1_0_0_1_n_n]; rfl
theorem lhs_contr (j : S65536x512.Idx) (k : (dot_S65536x512_S512x512_S65536x512_1_0_0_1_n_n).contr.Idx) (h : 0 < (dot_S65536x512_S512x512_S65536x512_1_0_0_1_n_n).contr.rank) :
    ((dot_S65536x512_S512x512_S65536x512_1_0_0_1_n_n).lhsIdx j k 1).val = (k ⟨0, h⟩).val := by
  simp [DotDims.lhsIdx, dot_S65536x512_S512x512_S65536x512_1_0_0_1_n_n]; rfl
theorem rhs_contr (j : S65536x512.Idx) (k : (dot_S65536x512_S512x512_S65536x512_1_0_0_1_n_n).contr.Idx) (h : 0 < (dot_S65536x512_S512x512_S65536x512_1_0_0_1_n_n).contr.rank) :
    ((dot_S65536x512_S512x512_S65536x512_1_0_0_1_n_n).rhsIdx j k 0).val = (k ⟨0, h⟩).val := by
  simp [DotDims.rhsIdx, dot_S65536x512_S512x512_S65536x512_1_0_0_1_n_n]; rfl
theorem rhs_col (j : S65536x512.Idx) (k : (dot_S65536x512_S512x512_S65536x512_1_0_0_1_n_n).contr.Idx) : ((dot_S65536x512_S512x512_S65536x512_1_0_0_1_n_n).rhsIdx j k 1).val = (j 1).val := by
  simp [DotDims.rhsIdx, dot_S65536x512_S512x512_S65536x512_1_0_0_1_n_n]; rfl

/-- Contract axis 1 of the features with axis 0 of the right factor: the plain product. -/
theorem plain : PlainDot (n := 65536) (k := 512) (m := 512) dot_S65536x512_S512x512_S65536x512_1_0_0_1_n_n where
  rank := contr_rank
  size := contr_size
  l0 := lhs_row
  l1 := lhs_contr
  r0 := rhs_contr
  r1 := rhs_col

/-! ## At the extended reals -/

open Cert.RoutedSine

/-- The right factor, as a matrix, is the expert's weights read (k, q) ↦ W[e, q, k]. -/
theorem expertMat_eq (o : Nat) (hs : S4x512x512.Slices ![o, 0, 0] S1x512x512) (W : FVec Ideal S4x512x512 .f32)
    (e : Fin 4) (ho : e.val = o) : (fun i => expertMat o hs W i) = expertT W e := by
  funext i
  rw [eq_ix2 i]
  exact expertMat_apply o hs W e ho (i 0) (i 1)

/-- One summand at (r, q): the row-by-column sum where row r's tile is b, else 0. -/
theorem summand_apply (t : IVec S65536 32) (b : BitVec 32) (x : FVec Ideal S65536x512 .f32) (W : FVec Ideal S4x512x512 .f32)
    (o : Nat) (hs : S4x512x512.Slices ![o, 0, 0] S1x512x512) (e : Fin 4) (ho : e.val = o) (r : Fin 65536) (q : Fin 512) :
    summand t b x (expertMat o hs W) (ix2 r q) = routed (t (ix1 r)) b (rowDot x (expertT W e) r q) := by
  unfold summand
  rw [select_apply, tileMask_apply, dotGeneral_at plain, expertMat_eq o hs W e ho]
  exact select_zero _ _ _

/-- The term at (r, q) is the stated result. -/
theorem mixTerm_apply (t : IVec S65536 32) (x : FVec Ideal S65536x512 .f32) (W : FVec Ideal S4x512x512 .f32)
    (r : Fin 65536) (q : Fin 512) : mixTerm t x W (ix2 r q) = Gat t x W r q := by
  unfold mixTerm Gat
  show Ideal.sin (Ideal.ofBits .f32 0x41F00000#32 *
      ((((Ideal.ofBits .f32 0x00000000#32
        + summand t 0#32 x (expertMat 0 slices_S4x512x512_S1x512x512_0_0_0 W) (ix2 r q))
        + summand t 1#32 x (expertMat 1 slices_S4x512x512_S1x512x512_1_0_0 W) (ix2 r q))
        + summand t 2#32 x (expertMat 2 slices_S4x512x512_S1x512x512_2_0_0 W) (ix2 r q))
        + summand t 3#32 x (expertMat 3 slices_S4x512x512_S1x512x512_3_0_0 W) (ix2 r q))) = _
  rw [summand_apply t 0#32 x W 0 _ 0 rfl, summand_apply t 1#32 x W 1 _ 1 rfl, summand_apply t 2#32 x W 2 _ 2 rfl,
    summand_apply t 3#32 x W 3 _ 3 rfl]

/-- The term, as an array, is the stated result at the tile it was given. -/
theorem mixTerm_eq (coords : FVec Ideal S1x65536x2 .f32) (x : FVec Ideal S65536x512 .f32) (W : FVec Ideal S4x512x512 .f32) :
    mixTerm (tileOf coords) x W = G coords x W := by
  funext i
  rw [eq_ix2 i]
  exact mixTerm_apply (tileOf coords) x W (i 0) (i 1)

end Cert.ReferenceIdeal.RefTerm

end
-- ==== Proof.RefTile.lean ====
/-
  What the first 60 operations leave: at the tile's buffer, the tile of every point as the statement spells it
  (both coordinates times 16, floored, converted, each one's remainder by 2 with the divisor's sign, twice the first
  plus the second), a function of the coordinates alone; the three argument arrays as they were.
-/
import proofs.«149066_j34754875359890_1_alg».proof.Proof.RefRun
import proofs.«149066_j34754875359890_1_alg».proof.Proof.Spec

noncomputable section

namespace Cert.ReferenceIdeal.RefTile

open Cert.ReferenceIdeal Cert.ReferenceIdeal.Gen Idealize.ShloMosaic Idealize.ShloMosaic.TcCoe Idealize.SL.Sem Idealize.ShloMosaic.StableHlo
open Cert.ReferenceIdeal.RefRun

variable {F : FTy → Type} [FloatOps F]

set_option maxHeartbeats 4000000 in
set_option maxRecDepth 8192 in
/-- The fold of the 60 operations at the tile's buffer: each operation's result at its own buffer is its function of
    its operands' contents, and the composed term is the statement's tile, definition by definition. -/
theorem tile_val (V : Valuation τ sig (Elt F)) :
    after tileOps V (main_v15 : DevRef τ sig) = Cert.RoutedSine.tileOf (V (main_arg1 : DevRef τ sig)) := by
  after_results_simp
  rfl

set_option maxHeartbeats 4000000 in
/-- None of the 60 writes the features. -/
theorem tile_arg0 (V : Valuation τ sig (Elt F)) : after tileOps V (main_arg0 : DevRef τ sig) = V (main_arg0 : DevRef τ sig) := by
  after_results_simp

set_option maxHeartbeats 4000000 in
/-- None of the 60 writes the coordinates. -/
theorem tile_arg1 (V : Valuation τ sig (Elt F)) : after tileOps V (main_arg1 : DevRef τ sig) = V (main_arg1 : DevRef τ sig) := by
  after_results_simp

set_option maxHeartbeats 4000000 in
/-- None of the 60 writes the weights. -/
theorem tile_arg2 (V : Valuation τ sig (Elt F)) : after tileOps V (main_arg2 : DevRef τ sig) = V (main_arg2 : DevRef τ sig) := by
  after_results_simp

end Cert.ReferenceIdeal.RefTile

end
-- ==== Proof.RefMix.lean ====
/-
  What the last 58 operations leave: at the result's buffer, the sine of 30 times the four routed summands added to
  zero, as one term of the tile's buffer, the features and the weights; the three argument arrays as they were.
-/
import proofs.«149066_j34754875359890_1_alg».proof.Proof.RefRun
import proofs.«149066_j34754875359890_1_alg».proof.Proof.RefTerm

noncomputable section

namespace Cert.ReferenceIdeal.RefMix

open Cert.ReferenceIdeal Cert.ReferenceIdeal.Gen Idealize.ShloMosaic Idealize.ShloMosaic.TcCoe Idealize.SL.Sem Idealize.ShloMosaic.StableHlo
open Cert.ReferenceIdeal.RefRun

variable {F : FTy → Type} [FloatOps F]

set_option maxHeartbeats 4000000 in
set_option maxRecDepth 8192 in
/-- The fold of the 58 operations at the result's buffer is the composed term. -/
theorem mix_val (V : Valuation τ sig (Elt F)) :
    after mixOps V (main_v55 : DevRef τ sig)
      = RefTerm.mixTerm (V (main_v15 : DevRef τ sig)) (V (main_arg0 : DevRef τ sig)) (V (main_arg2 : DevRef τ sig)) := by
  after_results_simp
  rfl

set_option maxHeartbeats 4000000 in
/-- None of the 58 writes the features. -/
theorem mix_arg0 (V : Valuation τ sig (Elt F)) : after mixOps V (main_arg0 : DevRef τ sig) = V (main_arg0 : DevRef τ sig) := by
  after_results_simp

set_option maxHeartbeats 4000000 in
/-- None of the 58 writes the coordinates. -/
theorem mix_arg1 (V : Valuation τ sig (Elt F)) : after mixOps V (main_arg1 : DevRef τ sig) = V (main_arg1 : DevRef τ sig) := by
  after_results_simp

set_option maxHeartbeats 4000000 in
/-- None of the 58 writes the weights. -/
theorem mix_arg2 (V : Valuation τ sig (Elt F)) : after mixOps V (main_arg2 : DevRef τ sig) = V (main_arg2 : DevRef τ sig) := by
  after_results_simp

end Cert.ReferenceIdeal.RefMix

end
-- ==== Proof.RefValue.lean ====
/-
  The reference's run and its value. Every weakly fair execution of @main terminates with each buffer at the fold of
  the 118 operations over the launch contents; at the result's buffer the fold of the last 58 over the fold of the
  first 60 is the routed sine of the launch's coordinates, features and weights, and no operation writes an argument.
-/
import proofs.«149066_j34754875359890_1_alg».proof.Proof.Spec
import proofs.«149066_j34754875359890_1_alg».proof.Proof.Gen.ReferenceIdeal
import proofs.«149066_j34754875359890_1_alg».proof.Proof.RefRun
import proofs.«149066_j34754875359890_1_alg».proof.Proof.RefTerm
import proofs.«149066_j34754875359890_1_alg».proof.Proof.RefTile
import proofs.«149066_j34754875359890_1_alg».proof.Proof.RefMix
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The result's buffer after all 118 operations, from any contents. -/
theorem result_eq (V : Valuation τ sig (Elt Ideal)) :
    after RefRun.mixOps (after RefRun.tileOps V) (main_v55 : DevRef τ sig)
      = Cert.RoutedSine.G (V (main_arg1 : DevRef τ sig)) (V (main_arg0 : DevRef τ sig)) (V (main_arg2 : DevRef τ sig)) := by
  rw [RefMix.mix_val, RefTile.tile_val, RefTile.tile_arg0, RefTile.tile_arg2]
  exact RefTerm.mixTerm_eq _ _ _

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v55)
          = Cert.RoutedSine.G (m ((c.tc : Thread nD τ).loc main_arg1)) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c main_v55).trans (result_eq (launchContents m c)),
       (h c main_arg0).trans ((RefMix.mix_arg0 _).trans (RefTile.tile_arg0 _)),
       (h c main_arg1).trans ((RefMix.mix_arg1 _).trans (RefTile.tile_arg1 _)),
       (h c main_arg2).trans ((RefMix.mix_arg2 _).trans (RefTile.tile_arg2 _))⟩)
    (RefRun.run_main m ρ)

end Cert.ReferenceIdeal.RefValue

end
-- ==== Proof.lean ====
/-
  The certificate's five claims.

  Both idealized programs end with their result array at ONE function of the three argument arrays (Proof/Spec.lean's G):
  at row r and column q,  sin (30 · Σ_e R_e)  with R_e expert e's dense layer Σ_k feats[r, k] · W[e, q, k] where the
  row's tile is e, and 0 elsewhere. The kernel reaches it block by block: each of the 64 grid points multiplies its 1024
  rows of features with the four transposed weight matrices on the matrix unit, weighs each product by a 0/1 mask column
  (the one-hot of the tile) and writes sin of 30 times the sum (Proof/KernelBody.lean, Proof/KernelHost.lean,
  Proof/KernelBlocks.lean). The reference forms the four whole products and selects each against zero by the comparison
  "tile = e" (Proof/RefRun.lean, Proof/RefValue.lean). The idealization rewrote nothing, so the preservation claim is
  empty; the three frames are the runs with the values dropped.
-/
import proofs.«149066_j34754875359890_1_alg».proof.Proof.Gen.Kernel.Frame
import proofs.«149066_j34754875359890_1_alg».proof.Proof.Gen.Pre_finite_inputs
import proofs.«149066_j34754875359890_1_alg».proof.Proof.KernelBlocks
import proofs.«149066_j34754875359890_1_alg».proof.Proof.RefValue
import proofs.«149066_j34754875359890_1_alg».proof.Defs
import Idealize.ShloMosaic.Adequacy
import Idealize.ShloMosaic.Init

noncomputable section

namespace Cert.Proof

open Idealize.ShloMosaic Idealize.SL.Sem

/-- The word-level kernel terminates without a fault and keeps its arguments. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.RefValue.run m ρ)

/-- From memories agreeing on the three arguments both runs end at G of those arguments. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2]

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_k, Cert.Proof.frame_ki, Cert.Proof.frame_ri, trivial, Cert.Proof.algebraic⟩

end
